-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x512 .f32) (main_arg2 : FVec F S512x1024 .f32) (main_arg3 : FVec F S1024 .f32) (main_arg4 : FVec F S512x512 .f32) (main_arg5 : FVec F S512 .f32) (main_arg6 : FVec F S512x512 .f32) (main_arg7 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x512 : Shape := ⟨2, ![4096, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S1x512 : Shape := ⟨2, ![1, 512]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S4096x512, .bf16⟩
  | .hbm, ⟨13, _⟩ => ⟨S4096x512, .bf16⟩
  | .hbm, ⟨14, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512, .f32⟩
  | .local _ .vmem, ⟨16, _⟩ => ⟨S4096x512, .bf16⟩
  | .local _ .vmem, ⟨17, _⟩ => ⟨S4096x512, .bf16⟩
  | .local _ .vmem, ⟨18, _⟩ => ⟨S512x512, .f32⟩
  | .local _ .vmem, ⟨19, _⟩ => ⟨S512, .f32⟩
  | .local _ .vmem, ⟨20, _⟩ => ⟨S512x512, .f32⟩
  | .local _ .vmem, ⟨21, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S512x1024_S512x512_0_0 : S512x1024.Slices ![0, 0] S512x512
  slices_S512x1024_S512x512_0_512 : S512x1024.Slices ![0, 512] S512x512
  slices_S1024_S512_0 : S1024.Slices ![0] S512
  slices_S1024_S512_512 : S1024.Slices ![512] S512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  slices_S512x512_o0_0_S512x64 : S512x512.Slices ![0, 0] S512x64
  slices_S4096x512_o0_0_S4096x64 : S4096x512.Slices ![0, 0] S4096x64
  transposes_S4096x64_p1_0_S64x4096 : S4096x64.Transposes [1, 0] S64x4096
  reduces_S512x4096_S512 : S512x4096.Reduces [1] S512
  shapeCasts_S512_S512x1 : S512.ShapeCasts S512x1
  broadcasts_S512x1_S512x4096 : S512x1.Broadcasts S512x4096
  slices_S512x512_o0_64_S512x64 : S512x512.Slices ![0, 64] S512x64
  slices_S4096x512_o0_64_S4096x64 : S4096x512.Slices ![0, 64] S4096x64
  slices_S512x512_o0_128_S512x64 : S512x512.Slices ![0, 128] S512x64
  slices_S4096x512_o0_128_S4096x64 : S4096x512.Slices ![0, 128] S4096x64
  slices_S512x512_o0_192_S512x64 : S512x512.Slices ![0, 192] S512x64
  slices_S4096x512_o0_192_S4096x64 : S4096x512.Slices ![0, 192] S4096x64
  slices_S512x512_o0_256_S512x64 : S512x512.Slices ![0, 256] S512x64
  slices_S4096x512_o0_256_S4096x64 : S4096x512.Slices ![0, 256] S4096x64
  slices_S512x512_o0_320_S512x64 : S512x512.Slices ![0, 320] S512x64
  slices_S4096x512_o0_320_S4096x64 : S4096x512.Slices ![0, 320] S4096x64
  slices_S512x512_o0_384_S512x64 : S512x512.Slices ![0, 384] S512x64
  slices_S4096x512_o0_384_S4096x64 : S4096x512.Slices ![0, 384] S4096x64
  slices_S512x512_o0_448_S512x64 : S512x512.Slices ![0, 448] S512x64
  slices_S4096x512_o0_448_S4096x64 : S4096x512.Slices ![0, 448] S4096x64
  concatenates_S512x64_S512x64_S512x64_S512x64_S512x64_S512x64_S512x64_S512x64_S512x512_d1 : Shape.Concatenates [S512x64, S512x64, S512x64, S512x64, S512x64, S512x64, S512x64, S512x64] S512x512 1
  dot_S512x512_S512x512_S512x512_1_0_0_1_n_n_wf : DotDims.WF S512x512 S512x512 S512x512 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x512.size a
  hwx0_6 : ∀ i : grid0.Coords, EltTy.bits .bf16 = 32 ∨ (Rect.block (s := S4096x512) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x512.size a
  hwx0_7 : ∀ i : grid0.Coords, EltTy.bits .bf16 = 32 ∨ (Rect.block (s := S4096x512) S512x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x512.size a ≤ S4096x512.size a
  hwx1_4 : ∀ i : grid1.Coords, EltTy.bits .bf16 = 32 ∨ (Rect.block (s := S4096x512) S4096x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .f32 = 32 ∨ (Rect.block (s := S4096x512) S512x512.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S4096x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x512 : Shape := ⟨2, ![4096, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S4096x1024 : Shape := ⟨2, ![4096, 1024]⟩
abbrev S1x1024 : Shape := ⟨2, ![1, 1024]⟩
abbrev S1x512 : Shape := ⟨2, ![1, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x8x64, .f32⟩
  | .hbm, ⟨19, _⟩ => ⟨S8x4096x64, .f32⟩
  | .hbm, ⟨20, _⟩ => ⟨S4096x8x64, .f32⟩
  | .hbm, ⟨21, _⟩ => ⟨S8x4096x64, .f32⟩
  | .hbm, ⟨22, _⟩ => ⟨S4096x8x64, .f32⟩
  | .hbm, ⟨23, _⟩ => ⟨S8x4096x64, .f32⟩
  | .hbm, ⟨24, _⟩ => ⟨S8x4096x4096, .f32⟩
  | .hbm, ⟨25, _⟩ => ⟨S_, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x64, .f32⟩
  | .hbm, ⟨44, _⟩ => ⟨S4096x8x64, .f32⟩
  | .hbm, ⟨45, _⟩ => ⟨S4096x512, .f32⟩
  | .hbm, ⟨46, _⟩ => ⟨S4096x512, .f32⟩
  | .hbm, ⟨47, _⟩ => ⟨S1x512, .f32⟩
  | .hbm, ⟨48, _⟩ => ⟨S4096x512, .f32⟩
  | .hbm, ⟨49, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x512_0_0 : S4096x1024.Slices ![0, 0] S4096x512
  slices_S4096x1024_S4096x512_0_512 : S4096x1024.Slices ![0, 512] S4096x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  shapeCasts_S4096x512_S4096x8x64 : S4096x512.ShapeCasts S4096x8x64
  transposes_S4096x8x64_S8x4096x64_1_0_2 : S4096x8x64.Transposes [1, 0, 2] S8x4096x64
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x64_S4096x8x64_1_0_2 : S8x4096x64.Transposes [1, 0, 2] S4096x8x64
  shapeCasts_S4096x8x64_S4096x512 : S4096x8x64.ShapeCasts S4096x512
  dot_S4096x512_S512x1024_S4096x1024_1_0_0_1_n_n_wf : DotDims.WF S4096x512 S512x1024 S4096x1024 [1] [0] [0] [1] [] []
  dot_S4096x512_S512x512_S4096x512_1_0_0_1_n_n_wf : DotDims.WF S4096x512 S512x512 S4096x512 [1] [0] [0] [1] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.RefRead.lean ====
/-
  The reference's run and its stages read at an index, gathered for the modules that compare the two programs.
-/
import proofs.«420745_j37675453120634_4_alg».proof.Proof.Gen.ReferenceIdeal.Run
import proofs.«420745_j37675453120634_4_alg».proof.Proof.Gen.ReferenceIdeal.Read
-- ==== Proof.Spec.lean ====
/-
  Multi-head attention over the extended reals, as one function of the eight argument arrays.

  A projection `x · w + b` is read at (n, j) as the sum over the contracted index plus the bias entry (`lin`).
  For ONE query row and ONE head the attention is `rowAttend q K V d`: the scores `(∑ d, q d · K m d) · (1/8)`
  against every key row m, their maximum taken as a fold of `max` from −∞, the weights `exp (s m − max) / ∑ exp (s m' − max)`,
  and the weighted sum of the value rows. Head h owns the 64 columns `64 h … 64 h + 63` of the 512-wide
  projections (`hcol`), so column j of the mixed row belongs to head `j / 64` at lane `j % 64`. The result row is
  the mixed row times the output weights plus the output bias (`outRow`), and `attention` is that at every row,
  with Q and K the two halves of the shared query-key projection.
  Two small laws join the two programs' spellings: dividing by `sqrt 64` is multiplying by `1/8` on every
  extended real, and a maximum with −∞ in front of a fold that starts at −∞ changes nothing.
-/
import Idealize.ShloMosaic.PureOps.Ideal
import Idealize.ShloMosaic.Lib.ValueIdx

noncomputable section

open scoped BigOperators

namespace Cert.Attn

open Idealize.ShloMosaic Idealize.ShloMosaic.ValueIdx

/-- A matrix and a vector of extended reals over the literal index types the programs use. -/
abbrev Mat (a b : Nat) : Type := (⟨2, ![a, b]⟩ : Shape).Idx → EReal
abbrev Vec1 (a : Nat) : Type := (⟨1, ![a]⟩ : Shape).Idx → EReal

/-- The kernel's literal `0.125` and both programs' `-inf`. -/
abbrev scale : EReal := Ideal.ofBits .f32 0x3E000000#32
abbrev negInf : EReal := Ideal.ofBits .f32 0xFF800000#32

/-- Column `64 h + d`: lane `d` of head `h`. -/
def hcol (h : Fin 8) (d : Fin 64) : Fin 512 := ⟨64 * h.val + d.val, by omega⟩
/-- The head and the lane a column belongs to. -/
def headOf (j : Fin 512) : Fin 8 := ⟨j.val / 64, by omega⟩
def laneOf (j : Fin 512) : Fin 64 := ⟨j.val % 64, by omega⟩

theorem hcol_headOf_laneOf (j : Fin 512) : hcol (headOf j) (laneOf j) = j := by
  apply Fin.ext; simp only [hcol, headOf, laneOf]; omega

/-- `x · w + b` at row n, column j. -/
def lin {r k c : Nat} (x : Mat r k) (w : Mat k c) (b : Vec1 c) (n : Fin r) (j : Fin c) : EReal :=
  (∑ i : Fin k, x (ix2 n i) * w (ix2 i j)) + b (ix1 j)

/-- 512 consecutive columns of the shared query-key weights, and the matching bias entries. -/
def colsFrom (o : Nat) (ho : o + 512 ≤ 1024) (w : Mat 512 1024) : Mat 512 512 :=
  fun i => w (ix2 (i 0) ⟨o + (i 1).val, by have h1 : (i 1).val < 512 := (i 1).isLt; omega⟩)
def entriesFrom (o : Nat) (ho : o + 512 ≤ 1024) (b : Vec1 1024) : Vec1 512 :=
  fun i => b (ix1 ⟨o + (i 0).val, by have h0 : (i 0).val < 512 := (i 0).isLt; omega⟩)

/-- One query row against one head's keys: the scaled scores. -/
def rowScore (q : Fin 64 → EReal) (K : Fin 4096 → Fin 64 → EReal) (m : Fin 4096) : EReal :=
  (∑ d : Fin 64, q d * K m d) * scale
/-- The row's maximum, a fold of `max` from −∞ over the key rows. -/
def rowMax (s : Fin 4096 → EReal) : EReal := (Finset.univ : Finset (Fin 4096)).fold max negInf s
/-- The softmax weight of key row m. -/
def rowWeight (s : Fin 4096 → EReal) (m : Fin 4096) : EReal :=
  Ideal.div (Ideal.exp (s m - rowMax s)) (∑ m' : Fin 4096, Ideal.exp (s m' - rowMax s))
/-- Lane d of the head's output for the row: the weighted sum of the value rows. -/
def rowAttend (q : Fin 64 → EReal) (K V : Fin 4096 → Fin 64 → EReal) (d : Fin 64) : EReal :=
  ∑ m : Fin 4096, rowWeight (rowScore q K) m * V m d

/-- Column j of the eight heads' outputs laid side by side, for one query row of 512 columns. -/
def mixedRow (qrow : Fin 512 → EReal) (K V : Fin 4096 → Fin 512 → EReal) (j : Fin 512) : EReal :=
  rowAttend (fun d => qrow (hcol (headOf j) d)) (fun m d => K m (hcol (headOf j) d)) (fun m d => V m (hcol (headOf j) d)) (laneOf j)

/-- The result row: the mixed row through the output projection. -/
def outRow (qrow : Fin 512 → EReal) (K V : Fin 4096 → Fin 512 → EReal) (wo : Mat 512 512) (bo : Vec1 512) (j : Fin 512) : EReal :=
  (∑ k : Fin 512, mixedRow qrow K V k * wo (ix2 k j)) + bo (ix1 j)

/-- The whole result array. -/
def attention (hs hd : Mat 4096 512) (wqk : Mat 512 1024) (bqk : Vec1 1024) (wv : Mat 512 512) (bv : Vec1 512)
    (wo : Mat 512 512) (bo : Vec1 512) : Mat 4096 512 :=
  fun i => outRow (fun j => lin hs (colsFrom 0 (by omega) wqk) (entriesFrom 0 (by omega) bqk) (i 0) j)
    (fun m j => lin hs (colsFrom 512 (by omega) wqk) (entriesFrom 512 (by omega) bqk) m j)
    (fun m j => lin hd wv bv m j) wo bo (i 1)

/-! ## The two laws -/

/-- `64.0` denotes the real 64 and `0.125` the real 1/8. -/
theorem ofBits_64 : Ideal.ofBits .f32 0x42800000#32 = ((64 : ℝ) : EReal) := by
  simp [Ideal.ofBits, Ideal.ieee, -EReal.coe_mul]; norm_num
theorem scale_eq : scale = ((1 / 8 : ℝ) : EReal) := by
  simp [scale, Ideal.ofBits, Ideal.ieee, -EReal.coe_mul]; norm_num

/-- Dividing by `sqrt 64` is multiplying by `1/8`, on every extended real. -/
theorem div_sqrt64 (x : EReal) : Ideal.div x (Ideal.sqrt (Ideal.ofBits .f32 0x42800000#32)) = x * scale := by
  have h8 : Real.sqrt 64 = 8 := by
    rw [show (64 : ℝ) = 8 ^ 2 by norm_num]; exact Real.sqrt_sq (by norm_num)
  rw [ofBits_64, Ideal.sqrt_coe, if_neg (by norm_num), h8, Ideal.div_coe (by norm_num : (8 : ℝ) ≠ 0), scale_eq]

/-- A maximum with −∞ in front of a fold of `max` that starts at −∞ is that fold. -/
theorem max_negInf_rowMax (s : Fin 4096 → EReal) : max negInf (rowMax s) = rowMax s :=
  max_eq_right ((Finset.le_fold_max _).mpr (Or.inl le_rfl))

end Cert.Attn

end
-- ==== Proof.KernelTerms.lean ====
/-
  The second kernel's stored value as ONE structured term.

  The printed body computes the eight heads one after the other; each head is the same expression of the query
  block q, the key array k and the value array v, at its own column offset: the slices of 64 columns, the keys
  transposed, the score matrix times 0.125, the row maxima and the exponentials, the row sums and the quotient,
  the product with the value columns (`headTerm`). The stored block is the eight heads side by side, times the
  output weights, plus the output bias (`outTerm`). Both equalities with the generated payload terms hold by unfolding.
-/
import proofs.«420745_j37675453120634_4_alg».proof.Proof.Gen.KernelIdeal.Skeleton
import proofs.«420745_j37675453120634_4_alg».proof.Proof.Gen.KernelIdeal.Frame

noncomputable section

namespace Cert.KernelIdeal.Hand

open Cert.KernelIdeal Cert.KernelIdeal.Gen Idealize.ShloMosaic Idealize.ShloMosaic.TcCoe Idealize.SL.Sem

variable {F : FTy → Type} [FloatOps F]

/-- The score matrix of one head: the query block's 64 columns from `o` against the keys' same columns, times 0.125. -/
def scoreTerm (o : Nat) (hq : S512x512.Slices ![0, o] S512x64) (hk : S4096x512.Slices ![0, o] S4096x64)
    (q : FVec F S512x512 .bf16) (k : FVec F S4096x512 .bf16) : FVec F S512x4096 .f32 :=
  mulf (matmul dot_S512x64_S64x4096_S512x4096_1_0_0_1_n_n none (extractStridedSlice S512x64 ![0, o] q hq)
      (transpose S64x4096 [1, 0] (extractStridedSlice S4096x64 ![0, o] k hk) transposes_S4096x64_p1_0_S64x4096)
      (constant S512x4096 .f32 0x00000000#32))
    (broadcast S512x4096 (Scalar.ofBits .f32 0x3E000000#32))

/-- The softmax of a score matrix along its rows, rounded to the matmul's input format. -/
def softmaxTerm (s : FVec F S512x4096 .f32) : FVec F S512x4096 .bf16 :=
  truncf .bf16
    (divf
      (exp (subf s (broadcastTo S512x4096 (shapeCast S512x1 (multiReduction .maximumf [1] S512 s 0xFF800000#32 reduces_S512x4096_S512 (.inl rfl) rfl) shapeCasts_S512_S512x1) broadcasts_S512x1_S512x4096)))
      (broadcastTo S512x4096 (shapeCast S512x1
        (multiReduction .add [1] S512
          (exp (subf s (broadcastTo S512x4096 (shapeCast S512x1 (multiReduction .maximumf [1] S512 s 0xFF800000#32 reduces_S512x4096_S512 (.inl rfl) rfl) shapeCasts_S512_S512x1) broadcasts_S512x1_S512x4096)))
          0x00000000#32 reduces_S512x4096_S512 (.inl rfl) rfl) shapeCasts_S512_S512x1) broadcasts_S512x1_S512x4096))
    bitsLt_bf16_f32

/-- The weights against the value columns of the head. -/
def mixTerm (o : Nat) (hk : S4096x512.Slices ![0, o] S4096x64) (a : FVec F S512x4096 .bf16) (v : FVec F S4096x512 .bf16) : FVec F S512x64 .bf16 :=
  truncf .bf16 (matmul dot_S512x4096_S4096x64_S512x64_1_0_0_1_n_n none a (extractStridedSlice S4096x64 ![0, o] v hk) (constant S512x64 .f32 0x00000000#32)) bitsLt_bf16_f32

/-- One head's output block. -/
def headTerm (o : Nat) (hq : S512x512.Slices ![0, o] S512x64) (hk : S4096x512.Slices ![0, o] S4096x64)
    (q : FVec F S512x512 .bf16) (k v : FVec F S4096x512 .bf16) : FVec F S512x64 .bf16 :=
  mixTerm o hk (softmaxTerm (scoreTerm o hq hk q k)) v

/-- The stored block: the heads side by side through the output projection. -/
def outTerm (x0 x1 : Vec F S512x512 .f32) (x2 : Vec F S512 .f32) (x3 x4 : Vec F S4096x512 .bf16) (x5 : Vec F S512x512 .f32) (x6 : Vec F S512 .f32) : FVec F S512x512 .f32 :=
  have q : FVec F S512x512 .bf16 := k1_pay2 x0 x1 x2
  have k : FVec F S4096x512 .bf16 := shapeCast S4096x512 x3 shapeCasts_S4096x512_S4096x512
  have v : FVec F S4096x512 .bf16 := shapeCast S4096x512 x4 shapeCasts_S4096x512_S4096x512
  addf
    (matmul dot_S512x512_S512x512_S512x512_1_0_0_1_n_n none
      (concatenate S512x512 1 [⟨S512x64, headTerm 0 slices_S512x512_o0_0_S512x64 slices_S4096x512_o0_0_S4096x64 q k v⟩,
        ⟨S512x64, headTerm 64 slices_S512x512_o0_64_S512x64 slices_S4096x512_o0_64_S4096x64 q k v⟩,
        ⟨S512x64, headTerm 128 slices_S512x512_o0_128_S512x64 slices_S4096x512_o0_128_S4096x64 q k v⟩,
        ⟨S512x64, headTerm 192 slices_S512x512_o0_192_S512x64 slices_S4096x512_o0_192_S4096x64 q k v⟩,
        ⟨S512x64, headTerm 256 slices_S512x512_o0_256_S512x64 slices_S4096x512_o0_256_S4096x64 q k v⟩,
        ⟨S512x64, headTerm 320 slices_S512x512_o0_320_S512x64 slices_S4096x512_o0_320_S4096x64 q k v⟩,
        ⟨S512x64, headTerm 384 slices_S512x512_o0_384_S512x64 slices_S4096x512_o0_384_S4096x64 q k v⟩,
        ⟨S512x64, headTerm 448 slices_S512x512_o0_448_S512x64 slices_S4096x512_o0_448_S4096x64 q k v⟩]
        concatenates_S512x64_S512x64_S512x64_S512x64_S512x64_S512x64_S512x64_S512x64_S512x512_d1)
      (truncf .bf16 x5 bitsLt_bf16_f32) (constant S512x512 .f32 0x00000000#32))
    (broadcastTo S512x512 (shapeCast S1x512 x6 shapeCasts_S512_S1x512) broadcasts_S1x512_S512x512)

set_option maxRecDepth 65536 in
/-- The generated block term of the output window IS `outTerm` of the loaded blocks. -/
theorem out1_7_eq (x0 x1 : Vec F S512x512 .f32) (x2 : Vec F S512 .f32) (x3 x4 : Vec F S4096x512 .bf16) (x5 : Vec F S512x512 .f32) (x6 : Vec F S512 .f32) :
    out1_7 x0 x1 x2 x3 x4 x5 x6 = View.canon [⟨r1_0, outTerm (View.ld x0 r1_0) (View.ld x1 r1_0) (View.ld x2 r1_1) (View.ld x3 r1_2) (View.ld x4 r1_2) (View.ld x5 r1_0) (View.ld x6 r1_1)⟩] := rfl

end Cert.KernelIdeal.Hand

end
-- ==== Proof.Linear.lean ====
/-
  The three projections of the kernels read at an index.

  Each is a `tpu.matmul` of a block of rows against a whole weight matrix into a zero accumulator, plus the bias
  row broadcast down the rows, with format changes that are the identity on the extended reals: at (p, q) the sum
  over the contracted index of row p of the block times column q of the weights, plus entry q of the bias.
-/
import proofs.«420745_j37675453120634_4_alg».proof.Proof.Spec
import proofs.«420745_j37675453120634_4_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-- The left operand's index of the 512 × 512 product: the output's row. -/
theorem lhs_lin_0 (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_lin_1 (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c
theorem rhs_lin_0 (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c
theorem rhs_lin_1 (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into the zero accumulator at (p, q): the sum over the contracted index. -/
theorem matmul_lin_apply {φ₁ φ₂ : FTy} (a : FVec Ideal S512x512 φ₁) (w : FVec Ideal S512x512 φ₂) (p q : Fin 512) :
    matmul dot_S512x512_S512x512_S512x512_1_0_0_1_n_n none a w (constant S512x512 .f32 0x00000000#32) (ix2 p q)
      = ∑ i : Fin 512, a (ix2 p i) * w (ix2 i q) := by
  refine (Ideal.matmul_constant_zero_apply dot_S512x512_S512x512_S512x512_1_0_0_1_n_n none a w (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k :=
    funext fun x => Fin.ext (by
      match x with
      | ⟨0, _⟩ => exact lhs_lin_0 _ _
      | ⟨1, _⟩ => exact (lhs_lin_1 _ _).trans hk)
  have er : dot_S512x512_S512x512_S512x512_1_0_0_1_n_n.rhsIdx (ix2 p q) ((contrEquiv1 dot_S512x512_S512x512_S512x512_1_0_0_1_n_n 512 rfl rfl).symm k) = ix2 k q :=
    funext fun x => Fin.ext (by
      match x with
      | ⟨0, _⟩ => exact (rhs_lin_0 _ _).trans hk
      | ⟨1, _⟩ => exact rhs_lin_1 _ _)
  rw [el, er]

/-- The bias row broadcast down the rows, at (p, q): entry q. -/
theorem bias_lin_apply (b : FVec Ideal S512 .f32) (h1 : S512.ShapeCasts S1x512) (h2 : S1x512.Broadcasts S512x512) (p q : Fin 512) :
    broadcastTo S512x512 (shapeCast S1x512 b h1) h2 (ix2 p q) = b (ix1 q) := by
  refine (broadcastTo_apply (shapeCast S1x512 b h1) h2 (ix2 p q) (ix2 (0 : Fin 1) q) (fun x => ?_)).trans ?_
  · match x with
    | ⟨0, _⟩ => show (0 : Nat) = if (1 : Nat) = 1 then 0 else _; rw [if_pos rfl]
    | ⟨1, _⟩ => show q.val = if (512 : Nat) = 1 then 0 else q.val; rw [if_neg (by decide)]
  · refine shapeCast_apply b h1 (ix2 (0 : Fin 1) q) (ix1 q) ?_
    rw [Shape.rowMajor_val_one, Shape.rowMajor_val_two]
    show q.val = 0 * 512 + q.val
    omega

/-- The projection at (p, q): `x · w + b`. -/
theorem lin_core {φ₁ φ₂ : FTy} (a : FVec Ideal S512x512 φ₁) (w : FVec Ideal S512x512 φ₂) (b : FVec Ideal S512 .f32)
    (h1 : S512.ShapeCasts S1x512) (h2 : S1x512.Broadcasts S512x512) (p q : Fin 512) :
    addf (matmul dot_S512x512_S512x512_S512x512_1_0_0_1_n_n none a w (constant S512x512 .f32 0x00000000#32))
        (broadcastTo S512x512 (shapeCast S1x512 b h1) h2) (ix2 p q)
      = Attn.lin a w b p q := by
  rw [addf_apply, matmul_lin_apply, bias_lin_apply]
  rfl

/-- The key projection's block (first kernel, first output). -/
theorem k0_pay1_apply (x0 x2 : Vec Ideal S512x512 .f32) (x3 : Vec Ideal S512 .f32) (p q : Fin 512) :
    k0_pay1 (F := Ideal) x0 x2 x3 (ix2 p q) = Attn.lin x0 x2 x3 p q := by
  unfold k0_pay1
  rw [truncf_apply, shapeCast_self, shapeCast_self]
  exact lin_core _ _ _ _ _ p q

/-- The value projection's block (first kernel, second output). -/
theorem k0_pay2_apply (x1 x4 : Vec Ideal S512x512 .f32) (x5 : Vec Ideal S512 .f32) (p q : Fin 512) :
    k0_pay2 (F := Ideal) x1 x4 x5 (ix2 p q) = Attn.lin x1 x4 x5 p q := by
  unfold k0_pay2
  rw [truncf_apply]
  exact lin_core _ _ _ _ _ p q

/-- The query projection's block (second kernel). -/
theorem k1_pay2_apply (x0 x1 : Vec Ideal S512x512 .f32) (x2 : Vec Ideal S512 .f32) (p q : Fin 512) :
    k1_pay2 (F := Ideal) x0 x1 x2 (ix2 p q) = Attn.lin x0 x1 x2 p q := by
  unfold k1_pay2
  rw [truncf_apply, shapeCast_self, shapeCast_self]
  exact lin_core _ _ _ _ _ p q

end Cert.KernelIdeal.Hand

end
-- ==== Proof.Head.lean ====
/-
  One head of the second kernel read at an index: row p of the head's output block is the attention of query row p
  (its 64 columns from the head's offset) over all 4096 key and value rows (their same 64 columns).
-/
import proofs.«420745_j37675453120634_4_alg».proof.Proof.Spec
import proofs.«420745_j37675453120634_4_alg».proof.Proof.KernelTerms
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-! ## The two products read at an index

Each product contracts ONE axis: the left operand's columns against the right operand's rows. At output index (r, c)
and contraction coordinate t the operands are read at (r, t) and (t, c). -/

theorem score_lhs_0 (i : S512x4096.Idx) (t : dot_S512x64_S64x4096_S512x4096_1_0_0_1_n_n.contr.Idx) :
    (dot_S512x64_S64x4096_S512x4096_1_0_0_1_n_n.lhsIdx i t 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem score_lhs_1 (i : S512x4096.Idx) (t : dot_S512x64_S64x4096_S512x4096_1_0_0_1_n_n.contr.Idx) :
    (dot_S512x64_S64x4096_S512x4096_1_0_0_1_n_n.lhsIdx i t 1).val = (t ⟨0, by decide⟩).val :=
  dot_S512x64_S64x4096_S512x4096_1_0_0_1_n_n.lhsIdx_val_of_single rfl i t
theorem score_rhs_0 (i : S512x4096.Idx) (t : dot_S512x64_S64x4096_S512x4096_1_0_0_1_n_n.contr.Idx) :
    (dot_S512x64_S64x4096_S512x4096_1_0_0_1_n_n.rhsIdx i t 0).val = (t ⟨0, by decide⟩).val :=
  dot_S512x64_S64x4096_S512x4096_1_0_0_1_n_n.rhsIdx_val_of_single rfl i t
theorem score_rhs_1 (i : S512x4096.Idx) (t : dot_S512x64_S64x4096_S512x4096_1_0_0_1_n_n.contr.Idx) :
    (dot_S512x64_S64x4096_S512x4096_1_0_0_1_n_n.rhsIdx i t 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- The [512,64] × [64,4096] product into the zero block, at (p, m): the sum over the 64 contracted coordinates. -/
theorem score_matmul_apply (a : FVec Ideal S512x64 .bf16) (b : FVec Ideal S64x4096 .bf16) (p : Fin 512) (m : Fin 4096) :
    matmul dot_S512x64_S64x4096_S512x4096_1_0_0_1_n_n none a b (constant S512x4096 .f32 0x00000000#32) (ix2 p m)
      = ∑ t : Fin 64, a (ix2 p t) * b (ix2 t m) := by
  refine (Ideal.matmul_constant_zero_apply dot_S512x64_S64x4096_S512x4096_1_0_0_1_n_n none a b (ix2 p m)).trans ?_
  rw [← Equiv.sum_comp (contrEquiv1 dot_S512x64_S64x4096_S512x4096_1_0_0_1_n_n 64 rfl rfl).symm]
  refine Finset.sum_congr rfl fun t _ => ?_
  have ht := contrEquiv1_symm_val dot_S512x64_S64x4096_S512x4096_1_0_0_1_n_n 64 rfl rfl t
  have el : dot_S512x64_S64x4096_S512x4096_1_0_0_1_n_n.lhsIdx (ix2 p m) ((contrEquiv1 dot_S512x64_S64x4096_S512x4096_1_0_0_1_n_n 64 rfl rfl).symm t) = ix2 p t := funext fun ax => Fin.ext (by
    match ax with
    | ⟨0, _⟩ => exact score_lhs_0 _ _
    | ⟨1, _⟩ => exact (score_lhs_1 _ _).trans ht)
  have er : dot_S512x64_S64x4096_S512x4096_1_0_0_1_n_n.rhsIdx (ix2 p m) ((contrEquiv1 dot_S512x64_S64x4096_S512x4096_1_0_0_1_n_n 64 rfl rfl).symm t) = ix2 t m := funext fun ax => Fin.ext (by
    match ax with
    | ⟨0, _⟩ => exact (score_rhs_0 _ _).trans ht
    | ⟨1, _⟩ => exact score_rhs_1 _ _)
  rw [el, er]

theorem mix_lhs_0 (i : S512x64.Idx) (t : dot_S512x4096_S4096x64_S512x64_1_0_0_1_n_n.contr.Idx) :
    (dot_S512x4096_S4096x64_S512x64_1_0_0_1_n_n.lhsIdx i t 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem mix_lhs_1 (i : S512x64.Idx) (t : dot_S512x4096_S4096x64_S512x64_1_0_0_1_n_n.contr.Idx) :
    (dot_S512x4096_S4096x64_S512x64_1_0_0_1_n_n.lhsIdx i t 1).val = (t ⟨0, by decide⟩).val :=
  dot_S512x4096_S4096x64_S512x64_1_0_0_1_n_n.lhsIdx_val_of_single rfl i t
theorem mix_rhs_0 (i : S512x64.Idx) (t : dot_S512x4096_S4096x64_S512x64_1_0_0_1_n_n.contr.Idx) :
    (dot_S512x4096_S4096x64_S512x64_1_0_0_1_n_n.rhsIdx i t 0).val = (t ⟨0, by decide⟩).val :=
  dot_S512x4096_S4096x64_S512x64_1_0_0_1_n_n.rhsIdx_val_of_single rfl i t
theorem mix_rhs_1 (i : S512x64.Idx) (t : dot_S512x4096_S4096x64_S512x64_1_0_0_1_n_n.contr.Idx) :
    (dot_S512x4096_S4096x64_S512x64_1_0_0_1_n_n.rhsIdx i t 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The [512,4096] × [4096,64] product into the zero block, at (p, d): the sum over the 4096 contracted coordinates. -/
theorem mix_matmul_apply (a : FVec Ideal S512x4096 .bf16) (b : FVec Ideal S4096x64 .bf16) (p : Fin 512) (d : Fin 64) :
    matmul dot_S512x4096_S4096x64_S512x64_1_0_0_1_n_n none a b (constant S512x64 .f32 0x00000000#32) (ix2 p d)
      = ∑ m : Fin 4096, a (ix2 p m) * b (ix2 m d) := by
  refine (Ideal.matmul_constant_zero_apply dot_S512x4096_S4096x64_S512x64_1_0_0_1_n_n none a b (ix2 p d)).trans ?_
  rw [← Equiv.sum_comp (contrEquiv1 dot_S512x4096_S4096x64_S512x64_1_0_0_1_n_n 4096 rfl rfl).symm]
  refine Finset.sum_congr rfl fun m _ => ?_
  have hm := contrEquiv1_symm_val dot_S512x4096_S4096x64_S512x64_1_0_0_1_n_n 4096 rfl rfl m
  have el : dot_S512x4096_S4096x64_S512x64_1_0_0_1_n_n.lhsIdx (ix2 p d) ((contrEquiv1 dot_S512x4096_S4096x64_S512x64_1_0_0_1_n_n 4096 rfl rfl).symm m) = ix2 p m := funext fun ax => Fin.ext (by
    match ax with
    | ⟨0, _⟩ => exact mix_lhs_0 _ _
    | ⟨1, _⟩ => exact (mix_lhs_1 _ _).trans hm)
  have er : dot_S512x4096_S4096x64_S512x64_1_0_0_1_n_n.rhsIdx (ix2 p d) ((contrEquiv1 dot_S512x4096_S4096x64_S512x64_1_0_0_1_n_n 4096 rfl rfl).symm m) = ix2 m d := funext fun ax => Fin.ext (by
    match ax with
    | ⟨0, _⟩ => exact (mix_rhs_0 _ _).trans hm
    | ⟨1, _⟩ => exact mix_rhs_1 _ _)
  rw [el, er]

/-! ## The score matrix -/

/-- The head's score at (p, m): query row p against key row m over the head's 64 columns, times 0.125. -/
theorem scoreTerm_apply (o : Nat) (ho : o + 64 ≤ 512) (hq : S512x512.Slices ![0, o] S512x64) (hk : S4096x512.Slices ![0, o] S4096x64)
    (q : FVec Ideal S512x512 .bf16) (k : FVec Ideal S4096x512 .bf16) (p : Fin 512) (m : Fin 4096) :
    scoreTerm (F := Ideal) o hq hk q k (ix2 p m)
      = Attn.rowScore (fun d' => q (ix2 p (⟨o + d'.val, by omega⟩ : Fin 512)))
          (fun m d' => k (ix2 m (⟨o + d'.val, by omega⟩ : Fin 512))) m := by
  unfold scoreTerm Attn.rowScore
  rw [mulf_apply, broadcast_apply, score_matmul_apply]
  refine congrArg₂ (· * ·) (Finset.sum_congr rfl fun t _ => ?_) rfl
  rw [slice2_axis1_apply o q hq p t ⟨o + t.val, by omega⟩ rfl, transpose_ix2_apply,
    slice2_axis1_apply o k hk m t ⟨o + t.val, by omega⟩ rfl]

/-! ## The row reductions, read back over the row -/

/-- Row p of the reduced shape with column m put back is (p, m). -/
theorem lift_row (p : Fin 512) (m : Fin 4096) : reduces_S512x4096_S512.lift (ix1 p) m = ix2 p m :=
  funext fun ax => Fin.ext (match ax with | ⟨0, _⟩ => rfl | ⟨1, _⟩ => rfl)

/-- A vector of 512 entries viewed as one column reads, at (p, u), entry p. -/
theorem col_cast_apply {α : Type} (x : S512.Idx → α) (p : Fin 512) (u : Fin 1) :
    shapeCast S512x1 x shapeCasts_S512_S512x1 (ix2 p u) = x (ix1 p) :=
  shapeCast_apply x _ _ _ (by
    have hu : u.val = 0 := by omega
    rw [Shape.rowMajor_val_one, Shape.rowMajor_val_two]
    show p.val = p.val * 1 + u.val
    rw [hu, Nat.mul_one, Nat.add_zero])

/-- One column repeated over 4096 columns reads, at (p, m), the column's entry p. -/
theorem col_bcast_apply {α : Type} (x : S512x1.Idx → α) (p : Fin 512) (m : Fin 4096) :
    broadcastTo S512x4096 x broadcasts_S512x1_S512x4096 (ix2 p m) = x (ix2 p (0 : Fin 1)) := by
  refine broadcastTo_apply x _ (ix2 p m) (ix2 p (0 : Fin 1)) fun ax => ?_
  match ax with
  | ⟨0, _⟩ => rfl
  | ⟨1, _⟩ => rfl

/-- The maximum along the rows, repeated over each row: at (p, m) it is the fold of max from −∞ over row p. -/
theorem rowMax_bcast_apply (s : FVec Ideal S512x4096 .f32) (p : Fin 512) (m : Fin 4096) :
    broadcastTo S512x4096 (shapeCast S512x1 (multiReduction .maximumf [1] S512 s 0xFF800000#32 reduces_S512x4096_S512 (.inl rfl) rfl) shapeCasts_S512_S512x1) broadcasts_S512x1_S512x4096 (ix2 p m)
      = Attn.rowMax (fun m' => s (ix2 p m')) := by
  rw [col_bcast_apply, col_cast_apply]
  refine (Ideal.multiReduction_maximumf_single s _ reduces_S512x4096_S512 (.inl rfl) rfl (ix1 p)).trans ?_
  have hrow : (s ∘ reduces_S512x4096_S512.lift (ix1 p)) = fun m' : Fin 4096 => s (ix2 p m') :=
    funext fun m' => congrArg s (lift_row p m')
  rw [hrow]
  rfl

/-- The sum along the rows, repeated over each row: at (p, m) it is the sum of row p. -/
theorem rowSum_bcast_apply (e : FVec Ideal S512x4096 .f32) (p : Fin 512) (m : Fin 4096) :
    broadcastTo S512x4096 (shapeCast S512x1 (multiReduction .add [1] S512 e 0x00000000#32 reduces_S512x4096_S512 (.inl rfl) rfl) shapeCasts_S512_S512x1) broadcasts_S512x1_S512x4096 (ix2 p m)
      = ∑ m' : Fin 4096, e (ix2 p m') := by
  rw [col_bcast_apply, col_cast_apply]
  refine (Ideal.multiReduction_add_single e _ reduces_S512x4096_S512 (.inl rfl) rfl (ix1 p)).trans ?_
  exact Finset.sum_congr rfl fun m' _ => congrArg e (lift_row p m')

/-! ## The softmax weights -/

/-- The exponential of a difference at an index. -/
theorem exp_subf_apply (s b : FVec Ideal S512x4096 .f32) (i : S512x4096.Idx) : exp (subf s b) i = Ideal.exp (s i - b i) := rfl

/-- The weight at (p, m): the softmax of row p of the scores, at m. No rounding is left at the extended reals. -/
theorem softmaxTerm_apply (s : FVec Ideal S512x4096 .f32) (p : Fin 512) (m : Fin 4096) :
    softmaxTerm (F := Ideal) s (ix2 p m) = Attn.rowWeight (fun m' => s (ix2 p m')) m := by
  unfold softmaxTerm Attn.rowWeight
  rw [truncf_apply, divf_apply, rowSum_bcast_apply, exp_subf_apply, rowMax_bcast_apply]
  refine congrArg (Ideal.div _) (Finset.sum_congr rfl fun m' _ => ?_)
  rw [exp_subf_apply, rowMax_bcast_apply]

/-! ## The weights against the value columns -/

/-- Lane d of row p of the mix: the weights of row p against column o + d of the values. -/
theorem mixTerm_apply (o : Nat) (ho : o + 64 ≤ 512) (hk : S4096x512.Slices ![0, o] S4096x64) (a : FVec Ideal S512x4096 .bf16)
    (v : FVec Ideal S4096x512 .bf16) (p : Fin 512) (d : Fin 64) :
    mixTerm (F := Ideal) o hk a v (ix2 p d) = ∑ m : Fin 4096, a (ix2 p m) * v (ix2 m (⟨o + d.val, by omega⟩ : Fin 512)) := by
  unfold mixTerm
  rw [truncf_apply, mix_matmul_apply]
  refine Finset.sum_congr rfl fun m _ => ?_
  rw [slice2_axis1_apply o v hk m d ⟨o + d.val, by omega⟩ rfl]

/-! ## One head -/

/-- Lane d of row p of a head's output block. -/
theorem headTerm_apply (o : Nat) (ho : o + 64 ≤ 512) (hq : S512x512.Slices ![0, o] S512x64) (hk : S4096x512.Slices ![0, o] S4096x64)
    (q : FVec Ideal S512x512 .bf16) (k v : FVec Ideal S4096x512 .bf16) (p : Fin 512) (d : Fin 64) :
    headTerm (F := Ideal) o hq hk q k v (ix2 p d)
      = Attn.rowAttend (fun d' => q (ix2 p (⟨o + d'.val, by omega⟩ : Fin 512)))
          (fun m d' => k (ix2 m (⟨o + d'.val, by omega⟩ : Fin 512)))
          (fun m d' => v (ix2 m (⟨o + d'.val, by omega⟩ : Fin 512))) d := by
  unfold headTerm Attn.rowAttend
  rw [mixTerm_apply o ho]
  refine Finset.sum_congr rfl fun m _ => ?_
  rw [softmaxTerm_apply]
  have hs : (fun m' : Fin 4096 => scoreTerm (F := Ideal) o hq hk q k (ix2 p m'))
      = Attn.rowScore (fun d' => q (ix2 p (⟨o + d'.val, by omega⟩ : Fin 512)))
          (fun m d' => k (ix2 m (⟨o + d'.val, by omega⟩ : Fin 512))) :=
    funext fun m' => scoreTerm_apply o ho hq hk q k p m'
  rw [hs]

end Cert.KernelIdeal.Hand

end
-- ==== Proof.OutBlock.lean ====
/-
  The second kernel's stored block read at an index: row p, column q is the result row of query row p of the
  block (`Attn.outRow`), the keys and values being the two whole arrays the kernel holds.
-/
import proofs.«420745_j37675453120634_4_alg».proof.Proof.Spec
import proofs.«420745_j37675453120634_4_alg».proof.Proof.KernelTerms
import proofs.«420745_j37675453120634_4_alg».proof.Proof.Linear
import proofs.«420745_j37675453120634_4_alg».proof.Proof.Head
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

/-- The eight heads' output blocks, by head. -/
def headBlocks (q : FVec Ideal S512x512 .bf16) (k v : FVec Ideal S4096x512 .bf16) : Fin 8 → (S512x64.Idx → EReal) := fun n =>
  match n with
  | ⟨0, _⟩ => headTerm 0 slices_S512x512_o0_0_S512x64 slices_S4096x512_o0_0_S4096x64 q k v
  | ⟨1, _⟩ => headTerm 64 slices_S512x512_o0_64_S512x64 slices_S4096x512_o0_64_S4096x64 q k v
  | ⟨2, _⟩ => headTerm 128 slices_S512x512_o0_128_S512x64 slices_S4096x512_o0_128_S4096x64 q k v
  | ⟨3, _⟩ => headTerm 192 slices_S512x512_o0_192_S512x64 slices_S4096x512_o0_192_S4096x64 q k v
  | ⟨4, _⟩ => headTerm 256 slices_S512x512_o0_256_S512x64 slices_S4096x512_o0_256_S4096x64 q k v
  | ⟨5, _⟩ => headTerm 320 slices_S512x512_o0_320_S512x64 slices_S4096x512_o0_320_S4096x64 q k v
  | ⟨6, _⟩ => headTerm 384 slices_S512x512_o0_384_S512x64 slices_S4096x512_o0_384_S4096x64 q k v
  | ⟨7, _⟩ => headTerm 448 slices_S512x512_o0_448_S512x64 slices_S4096x512_o0_448_S4096x64 q k v

/-- Lane d of row p of head n: the row's attention over the head's own 64 columns. -/
theorem headBlocks_apply (q : FVec Ideal S512x512 .bf16) (k v : FVec Ideal S4096x512 .bf16) (n : Fin 8) (p : Fin 512) (d : Fin 64) :
    headBlocks q k v n (ix2 p d)
      = Attn.rowAttend (fun d' => q (ix2 p (Attn.hcol n d'))) (fun m d' => k (ix2 m (Attn.hcol n d')))
          (fun m d' => v (ix2 m (Attn.hcol n d'))) d := by
  match n with
  | ⟨0, _⟩ => exact headTerm_apply 0 (by omega) _ _ q k v p d
  | ⟨1, _⟩ => exact headTerm_apply 64 (by omega) _ _ q k v p d
  | ⟨2, _⟩ => exact headTerm_apply 128 (by omega) _ _ q k v p d
  | ⟨3, _⟩ => exact headTerm_apply 192 (by omega) _ _ q k v p d
  | ⟨4, _⟩ => exact headTerm_apply 256 (by omega) _ _ q k v p d
  | ⟨5, _⟩ => exact headTerm_apply 320 (by omega) _ _ q k v p d
  | ⟨6, _⟩ => exact headTerm_apply 384 (by omega) _ _ q k v p d
  | ⟨7, _⟩ => exact headTerm_apply 448 (by omega) _ _ q k v p d

/-- The eight heads side by side at (p, j): head j / 64 at lane j % 64. -/
theorem heads_concat_apply (q : FVec Ideal S512x512 .bf16) (k v : FVec Ideal S4096x512 .bf16) (p j : Fin 512) :
    concatenate S512x512 1 [⟨S512x64, headTerm 0 slices_S512x512_o0_0_S512x64 slices_S4096x512_o0_0_S4096x64 q k v⟩,
        ⟨S512x64, headTerm 64 slices_S512x512_o0_64_S512x64 slices_S4096x512_o0_64_S4096x64 q k v⟩,
        ⟨S512x64, headTerm 128 slices_S512x512_o0_128_S512x64 slices_S4096x512_o0_128_S4096x64 q k v⟩,
        ⟨S512x64, headTerm 192 slices_S512x512_o0_192_S512x64 slices_S4096x512_o0_192_S4096x64 q k v⟩,
        ⟨S512x64, headTerm 256 slices_S512x512_o0_256_S512x64 slices_S4096x512_o0_256_S4096x64 q k v⟩,
        ⟨S512x64, headTerm 320 slices_S512x512_o0_320_S512x64 slices_S4096x512_o0_320_S4096x64 q k v⟩,
        ⟨S512x64, headTerm 384 slices_S512x512_o0_384_S512x64 slices_S4096x512_o0_384_S4096x64 q k v⟩,
        ⟨S512x64, headTerm 448 slices_S512x512_o0_448_S512x64 slices_S4096x512_o0_448_S4096x64 q k v⟩]
        concatenates_S512x64_S512x64_S512x64_S512x64_S512x64_S512x64_S512x64_S512x64_S512x512_d1 (ix2 p j)
      = headBlocks q k v (Attn.headOf j) (ix2 p (Attn.laneOf j)) := by
  refine concatenate_ofFn_apply (t := S512x512) (s₁ := S512x64) 1 (headBlocks q k v)
    concatenates_S512x64_S512x64_S512x64_S512x64_S512x64_S512x64_S512x64_S512x64_S512x512_d1 rfl 64 rfl (ix2 p j) (Attn.headOf j) rfl
    (ix2 p (Attn.laneOf j)) rfl (fun b hb => ?_)
  match b with
  | ⟨0, _⟩ => rfl
  | ⟨1, _⟩ => exact absurd rfl hb

theorem outTerm_apply (x0 x1 : Vec Ideal S512x512 .f32) (x2 : Vec Ideal S512 .f32) (x3 x4 : Vec Ideal S4096x512 .bf16)
    (x5 : Vec Ideal S512x512 .f32) (x6 : Vec Ideal S512 .f32) (p q : Fin 512) :
    outTerm (F := Ideal) x0 x1 x2 x3 x4 x5 x6 (ix2 p q)
      = Attn.outRow (fun j => Attn.lin x0 x1 x2 p j) (fun m j => x3 (ix2 m j)) (fun m j => x4 (ix2 m j)) x5 x6 q := by
  unfold outTerm Attn.outRow
  rw [shapeCast_self, shapeCast_self, addf_apply, matmul_lin_apply, bias_lin_apply]
  refine congrArg (· + x6 (ix1 q)) (Finset.sum_congr rfl fun j _ => ?_)
  rw [truncf_apply, heads_concat_apply, headBlocks_apply]
  unfold Attn.mixedRow
  simp only [k1_pay2_apply]

end Cert.KernelIdeal.Hand

end
-- ==== Proof.Arrays.lean ====
/-
  From blocks to arrays. Each output window's block at grid point t covers rows 512 t … 512 t + 511 of its array and
  all 512 columns; the eight points tile the array. So each output array after its region is one function of the
  arrays the region found: the two projections after the first region, the attention result after the second.
-/
import proofs.«420745_j37675453120634_4_alg».proof.Proof.Spec
import proofs.«420745_j37675453120634_4_alg».proof.Proof.KernelTerms
import proofs.«420745_j37675453120634_4_alg».proof.Proof.Linear
import proofs.«420745_j37675453120634_4_alg».proof.Proof.OutBlock
import proofs.«420745_j37675453120634_4_alg».proof.Proof.Gen.KernelIdeal.Frame
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ### The key array: windows 0, 2, 3 and 6 of the first region -/

/-- The zero offsets of a rank-2 rectangle, and of a rank-1 one. -/
theorem offsets2_zero : (![0, 0] : Fin 2 → Nat) = fun _ => 0 := funext fun a => by fin_cases a <;> rfl
theorem offsets1_zero : (![0] : Fin 1 → Nat) = fun _ => 0 := funext fun a => by fin_cases a <;> rfl

/-- The first region's block indices over the grid: the two input arrays and the two output arrays are cut into row
    blocks, block t at point t; the weights and the biases are whole, block 0 at every point. -/
theorem blockIndex0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0
  ∧ win0_7.index t (0 : Fin 2) = t.val ∧ win0_7.index t (1 : Fin 2) = 0 :=
  (by decide +kernel : ∀ t : Fin grid0.N, _)

/-- The input block of the key projection at point t is rows 512 t … 512 t + 511 of the input array. -/
theorem keyIn_rows (c : Dev nD) (t : Fin cfg0.N) (p k : Fin 512) (i : S4096x512.Idx)
    (hi0 : (i 0).val = 512 * t.val + p.val) (hi1 : (i 1).val = k.val) :
    (iblk0 V c 0 t : Vec Ideal S512x512 .f32) (ix2 p k) = (V c main_arg0 : S4096x512.Idx → EReal) i := by
  obtain ⟨e0, e1, -⟩ := blockIndex0 t
  unfold iblk0
  rw [View.read_apply]
  show V c main_arg0 (((cfg0.win 0).blk t).view.emb (ix2 p k)) = V c main_arg0 i
  congr 1
  funext a
  apply Fin.ext
  match a with
  | ⟨0, _⟩ => show win0_0.index t (0 : Fin 2) * 512 + 1 * p.val = (i 0).val; omega
  | ⟨1, _⟩ => show win0_0.index t (1 : Fin 2) * 512 + 1 * k.val = (i 1).val; omega

/-- The key weights' block is the whole array at every point, -/
theorem keyW_whole (c : Dev nD) (t : Fin cfg0.N) (y : S512x512.Idx) :
    (iblk0 V c 2 t : Vec Ideal S512x512 .f32) y = (V c main_v1 : S512x512.Idx → EReal) y := by
  obtain ⟨-, -, -, -, e0, e1, -⟩ := blockIndex0 t
  unfold iblk0
  rw [View.read_apply]
  show V c main_v1 (((cfg0.win 2).blk t).view.emb y) = V c main_v1 y
  congr 1
  funext a
  apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- and so is the key bias's. -/
theorem keyB_whole (c : Dev nD) (t : Fin cfg0.N) (y : S512.Idx) :
    (iblk0 V c 3 t : Vec Ideal S512 .f32) y = (V c main_v3 : S512.Idx → EReal) y := by
  obtain ⟨-, -, -, -, -, -, e0, -⟩ := blockIndex0 t
  unfold iblk0
  rw [View.read_apply]
  show V c main_v3 (((cfg0.win 3).blk t).view.emb y) = V c main_v3 y
  congr 1
  funext a
  apply Fin.ext
  match a with
  | ⟨0, _⟩ => show win0_3.index t (0 : Fin 1) * 512 + 1 * (y 0).val = (y 0).val; omega

/-- The projection's block at a point: rows 512 t … 512 t + 511 of the projection of the whole array. -/
theorem lin_rowBlock (A : S4096x512.Idx → EReal) (W : S512x512.Idx → EReal) (b : S512.Idx → EReal)
    (x0 x2 : Vec Ideal S512x512 .f32) (x3 : Vec Ideal S512 .f32) (t : Nat)
    (h0 : ∀ (p k : Fin 512) (i : S4096x512.Idx), (i 0).val = 512 * t + p.val → (i 1).val = k.val → x0 (ix2 p k) = A i)
    (h2 : ∀ y, x2 y = W y) (h3 : ∀ y, x3 y = b y) (p q : Fin 512) (i : S4096x512.Idx)
    (hi0 : (i 0).val = 512 * t + p.val) (hi1 : (i 1).val = q.val) :
    Attn.lin x0 x2 x3 p q = Attn.lin A W b (i 0) (i 1) := by
  have e1 : i 1 = q := Fin.ext hi1
  unfold Attn.lin
  rw [e1, h3]
  congr 1
  exact Finset.sum_congr rfl fun k _ => by rw [h0 p k (ix2 (i 0) k) hi0 rfl, h2]

/-- What point t writes back to the key array is block t of the key projection of the arrays the region found. -/
theorem keyBlock (c : Dev nD) (t : Fin cfg0.N) :
    (dat0 V c).flushed 6 t = ((cfg0.win 6).blk t).view.read (Elt Ideal)
      (fun i => Attn.lin (V c main_arg0) (V c main_v1) (V c main_v3) (i 0) (i 1) : S4096x512.Idx → EReal) := by
  show (cfg0.win 6).cut (grid0.coords t) ((dat0 V c).after 6 t) = _
  rw [after0_6]
  unfold out0_6
  rw [View.canon_unit_zero offsets2_zero]
  simp only [View.ld_unit_zero (S := S512x512) offsets2_zero, View.ld_unit_zero (S := S512) offsets1_zero]
  obtain ⟨-, -, -, -, -, -, -, -, -, -, e0, e1, -⟩ := blockIndex0 t
  funext j
  obtain ⟨p, q, rfl⟩ : ∃ (p q : Fin 512), j = (ix2 p q : S512x512.Idx) := ⟨j 0, j 1, eq_ix2 j⟩
  rw [View.read_apply]
  show k0_pay1 (F := Ideal) (iblk0 V c 0 t) (iblk0 V c 2 t) (iblk0 V c 3 t) (ix2 p q)
    = Attn.lin (V c main_arg0) (V c main_v1) (V c main_v3) ((((cfg0.win 6).blk t).view.emb (ix2 p q)) 0) ((((cfg0.win 6).blk t).view.emb (ix2 p q)) 1)
  rw [k0_pay1_apply]
  refine lin_rowBlock _ _ _ _ _ _ t.val (fun p k i => keyIn_rows V c t p k i) (keyW_whole V c t) (keyB_whole V c t) p q _ ?_ ?_
  · show win0_6.index t (0 : Fin 2) * 512 + 1 * p.val = 512 * t.val + p.val; omega
  · show win0_6.index t (1 : Fin 2) * 512 + 1 * q.val = q.val; omega

/-- An index of the key array is in point t's block iff each coordinate is in the block's range on its axis. -/
theorem mem_keyBlock (t : Fin cfg0.N) (i : S4096x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4_0).slice (win0_6.rect t)).set ↔ _
  rw [View.set_slice_whole, Rect.mem_set_unit]
  exact Iff.rfl

/-- Row r of the key array is in the block of point r / 512. -/
theorem key_cover (i : S4096x512.Idx) :
    ∃ t : Fin cfg0.N, (cfg0.win 6).flush t = true ∧ i ∈ ((cfg0.win 6).blk t).view.set := by
  have hi0 : (i 0).val < 4096 := (i 0).isLt
  have hi1 : (i 1).val < 512 := (i 1).isLt
  let t : Fin cfg0.N := ⟨(i 0).val / 512, by rw [show cfg0.N = 8 from N_0]; omega⟩
  have ht : t.val = (i 0).val / 512 := rfl
  obtain ⟨-, -, -, -, -, -, -, -, -, -, e0, e1, -⟩ := blockIndex0 t
  refine ⟨t, flush0_6 t, ?_⟩
  rw [mem_keyBlock]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-! ### The value array: the same road over windows 1, 4, 5 and 7 -/

/-- The input block of the value projection at point t is rows 512 t … 512 t + 511 of its input array. -/
theorem valIn_rows (c : Dev nD) (t : Fin cfg0.N) (p k : Fin 512) (i : S4096x512.Idx)
    (hi0 : (i 0).val = 512 * t.val + p.val) (hi1 : (i 1).val = k.val) :
    (iblk0 V c 1 t : Vec Ideal S512x512 .f32) (ix2 p k) = (V c main_arg1 : S4096x512.Idx → EReal) i := by
  obtain ⟨-, -, e0, e1, -⟩ := blockIndex0 t
  unfold iblk0
  rw [View.read_apply]
  show V c main_arg1 (((cfg0.win 1).blk t).view.emb (ix2 p k)) = V c main_arg1 i
  congr 1
  funext a
  apply Fin.ext
  match a with
  | ⟨0, _⟩ => show win0_1.index t (0 : Fin 2) * 512 + 1 * p.val = (i 0).val; omega
  | ⟨1, _⟩ => show win0_1.index t (1 : Fin 2) * 512 + 1 * k.val = (i 1).val; omega

/-- The value weights' block is the whole array at every point, -/
theorem valW_whole (c : Dev nD) (t : Fin cfg0.N) (y : S512x512.Idx) :
    (iblk0 V c 4 t : Vec Ideal S512x512 .f32) y = (V c main_arg4 : S512x512.Idx → EReal) y := by
  obtain ⟨-, -, -, -, -, -, -, e0, e1, -⟩ := blockIndex0 t
  unfold iblk0
  rw [View.read_apply]
  show V c main_arg4 (((cfg0.win 4).blk t).view.emb y) = V c main_arg4 y
  congr 1
  funext a
  apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- and so is the value bias's. -/
theorem valB_whole (c : Dev nD) (t : Fin cfg0.N) (y : S512.Idx) :
    (iblk0 V c 5 t : Vec Ideal S512 .f32) y = (V c main_arg5 : S512.Idx → EReal) y := by
  obtain ⟨-, -, -, -, -, -, -, -, -, e0, -⟩ := blockIndex0 t
  unfold iblk0
  rw [View.read_apply]
  show V c main_arg5 (((cfg0.win 5).blk t).view.emb y) = V c main_arg5 y
  congr 1
  funext a
  apply Fin.ext
  match a with
  | ⟨0, _⟩ => show win0_5.index t (0 : Fin 1) * 512 + 1 * (y 0).val = (y 0).val; omega

/-- What point t writes back to the value array is block t of the value projection of the arrays the region found. -/
theorem valueBlock (c : Dev nD) (t : Fin cfg0.N) :
    (dat0 V c).flushed 7 t = ((cfg0.win 7).blk t).view.read (Elt Ideal)
      (fun i => Attn.lin (V c main_arg1) (V c main_arg4) (V c main_arg5) (i 0) (i 1) : S4096x512.Idx → EReal) := by
  show (cfg0.win 7).cut (grid0.coords t) ((dat0 V c).after 7 t) = _
  rw [after0_7]
  unfold out0_7
  rw [View.canon_unit_zero offsets2_zero]
  simp only [View.ld_unit_zero (S := S512x512) offsets2_zero, View.ld_unit_zero (S := S512) offsets1_zero]
  obtain ⟨-, -, -, -, -, -, -, -, -, -, -, -, e0, e1⟩ := blockIndex0 t
  funext j
  obtain ⟨p, q, rfl⟩ : ∃ (p q : Fin 512), j = (ix2 p q : S512x512.Idx) := ⟨j 0, j 1, eq_ix2 j⟩
  rw [View.read_apply]
  show k0_pay2 (F := Ideal) (iblk0 V c 1 t) (iblk0 V c 4 t) (iblk0 V c 5 t) (ix2 p q)
    = Attn.lin (V c main_arg1) (V c main_arg4) (V c main_arg5) ((((cfg0.win 7).blk t).view.emb (ix2 p q)) 0) ((((cfg0.win 7).blk t).view.emb (ix2 p q)) 1)
  rw [k0_pay2_apply]
  refine lin_rowBlock _ _ _ _ _ _ t.val (fun p k i => valIn_rows V c t p k i) (valW_whole V c t) (valB_whole V c t) p q _ ?_ ?_
  · show win0_7.index t (0 : Fin 2) * 512 + 1 * p.val = 512 * t.val + p.val; omega
  · show win0_7.index t (1 : Fin 2) * 512 + 1 * q.val = q.val; omega

/-- An index of the value array is in point t's block iff each coordinate is in the block's range on its axis. -/
theorem mem_valueBlock (t : Fin cfg0.N) (i : S4096x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v4_1).slice (win0_7.rect t)).set ↔ _
  rw [View.set_slice_whole, Rect.mem_set_unit]
  exact Iff.rfl

/-- Row r of the value array is in the block of point r / 512. -/
theorem value_cover (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  let t : Fin cfg0.N := ⟨(i 0).val / 512, by rw [show cfg0.N = 8 from N_0]; omega⟩
  have ht : t.val = (i 0).val / 512 := rfl
  obtain ⟨-, -, -, -, -, -, -, -, -, -, -, -, e0, e1⟩ := blockIndex0 t
  refine ⟨t, flush0_7 t, ?_⟩
  rw [mem_valueBlock]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-! ### The result array: the second region's windows -/

/-- The second region's block indices over the grid: the input array and the result array are cut into row blocks,
    block t at point t; the weights, the biases, the key array and the value array are whole, block 0 at every point. -/
theorem blockIndex1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 1) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 1) = 0
  ∧ win1_7.index t (0 : Fin 2) = t.val ∧ win1_7.index t (1 : Fin 2) = 0 :=
  (by decide +kernel : ∀ t : Fin grid1.N, _)

/-- The input block of the query projection at point t is rows 512 t … 512 t + 511 of the input array. -/
theorem qIn_rows (c : Dev nD) (t : Fin cfg1.N) (p k : Fin 512) (i : S4096x512.Idx)
    (hi0 : (i 0).val = 512 * t.val + p.val) (hi1 : (i 1).val = k.val) :
    (iblk1 V c 0 t : Vec Ideal S512x512 .f32) (ix2 p k) = (V c main_arg0 : S4096x512.Idx → EReal) i := by
  obtain ⟨e0, e1, -⟩ := blockIndex1 t
  unfold iblk1
  rw [View.read_apply]
  show V c main_arg0 (((cfg1.win 0).blk t).view.emb (ix2 p k)) = V c main_arg0 i
  congr 1
  funext a
  apply Fin.ext
  match a with
  | ⟨0, _⟩ => show win1_0.index t (0 : Fin 2) * 512 + 1 * p.val = (i 0).val; omega
  | ⟨1, _⟩ => show win1_0.index t (1 : Fin 2) * 512 + 1 * k.val = (i 1).val; omega

/-- The query weights, the query bias, the key array, the value array, the output weights and the output bias: each
    one's block is the whole array at every point. -/
theorem qW_whole (c : Dev nD) (t : Fin cfg1.N) (y : S512x512.Idx) :
    (iblk1 V c 1 t : Vec Ideal S512x512 .f32) y = (V c main_v0 : S512x512.Idx → EReal) y := by
  obtain ⟨-, -, e0, e1, -⟩ := blockIndex1 t
  unfold iblk1
  rw [View.read_apply]
  show V c main_v0 (((cfg1.win 1).blk t).view.emb y) = V c main_v0 y
  congr 1
  funext a
  apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega

theorem qB_whole (c : Dev nD) (t : Fin cfg1.N) (y : S512.Idx) :
    (iblk1 V c 2 t : Vec Ideal S512 .f32) y = (V c main_v2 : S512.Idx → EReal) y := by
  obtain ⟨-, -, -, -, e0, -⟩ := blockIndex1 t
  unfold iblk1
  rw [View.read_apply]
  show V c main_v2 (((cfg1.win 2).blk t).view.emb y) = V c main_v2 y
  congr 1
  funext a
  apply Fin.ext
  match a with
  | ⟨0, _⟩ => show win1_2.index t (0 : Fin 1) * 512 + 1 * (y 0).val = (y 0).val; omega

theorem keys_whole (c : Dev nD) (t : Fin cfg1.N) (y : S4096x512.Idx) :
    (iblk1 V c 3 t : Vec Ideal S4096x512 .bf16) y = (V c main_v4_0 : S4096x512.Idx → EReal) y := by
  obtain ⟨-, -, -, -, -, e0, e1, -⟩ := blockIndex1 t
  unfold iblk1
  rw [View.read_apply]
  show V c main_v4_0 (((cfg1.win 3).blk t).view.emb y) = V c main_v4_0 y
  congr 1
  funext a
  apply Fin.ext
  match a with
  | ⟨0, _⟩ => show win1_3.index t (0 : Fin 2) * 4096 + 1 * (y 0).val = (y 0).val; omega
  | ⟨1, _⟩ => show win1_3.index t (1 : Fin 2) * 512 + 1 * (y 1).val = (y 1).val; omega

theorem values_whole (c : Dev nD) (t : Fin cfg1.N) (y : S4096x512.Idx) :
    (iblk1 V c 4 t : Vec Ideal S4096x512 .bf16) y = (V c main_v4_1 : S4096x512.Idx → EReal) y := by
  obtain ⟨-, -, -, -, -, -, -, e0, e1, -⟩ := blockIndex1 t
  unfold iblk1
  rw [View.read_apply]
  show V c main_v4_1 (((cfg1.win 4).blk t).view.emb y) = V c main_v4_1 y
  congr 1
  funext a
  apply Fin.ext
  match a with
  | ⟨0, _⟩ => show win1_4.index t (0 : Fin 2) * 4096 + 1 * (y 0).val = (y 0).val; omega
  | ⟨1, _⟩ => show win1_4.index t (1 : Fin 2) * 512 + 1 * (y 1).val = (y 1).val; omega

theorem outW_whole (c : Dev nD) (t : Fin cfg1.N) (y : S512x512.Idx) :
    (iblk1 V c 5 t : Vec Ideal S512x512 .f32) y = (V c main_arg6 : S512x512.Idx → EReal) y := by
  obtain ⟨-, -, -, -, -, -, -, -, -, e0, e1, -⟩ := blockIndex1 t
  unfold iblk1
  rw [View.read_apply]
  show V c main_arg6 (((cfg1.win 5).blk t).view.emb y) = V c main_arg6 y
  congr 1
  funext a
  apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

theorem outB_whole (c : Dev nD) (t : Fin cfg1.N) (y : S512.Idx) :
    (iblk1 V c 6 t : Vec Ideal S512 .f32) y = (V c main_arg7 : S512.Idx → EReal) y := by
  obtain ⟨-, -, -, -, -, -, -, -, -, -, -, e0, -⟩ := blockIndex1 t
  unfold iblk1
  rw [View.read_apply]
  show V c main_arg7 (((cfg1.win 6).blk t).view.emb y) = V c main_arg7 y
  congr 1
  funext a
  apply Fin.ext
  match a with
  | ⟨0, _⟩ => show win1_6.index t (0 : Fin 1) * 512 + 1 * (y 0).val = (y 0).val; omega

/-- The result block at a point: rows 512 t … 512 t + 511 of the attention result over the whole arrays. -/
theorem outRow_rowBlock (A : S4096x512.Idx → EReal) (W : S512x512.Idx → EReal) (b : S512.Idx → EReal)
    (K U : S4096x512.Idx → EReal) (Wo : S512x512.Idx → EReal) (bo : S512.Idx → EReal)
    (x0 x1 : Vec Ideal S512x512 .f32) (x2 : Vec Ideal S512 .f32) (x3 x4 : Vec Ideal S4096x512 .bf16)
    (x5 : Vec Ideal S512x512 .f32) (x6 : Vec Ideal S512 .f32) (t : Nat)
    (h0 : ∀ (p k : Fin 512) (i : S4096x512.Idx), (i 0).val = 512 * t + p.val → (i 1).val = k.val → x0 (ix2 p k) = A i)
    (h1 : ∀ y, x1 y = W y) (h2 : ∀ y, x2 y = b y) (h3 : ∀ y, x3 y = K y) (h4 : ∀ y, x4 y = U y)
    (h5 : ∀ y, x5 y = Wo y) (h6 : ∀ y, x6 y = bo y) (p q : Fin 512) (i : S4096x512.Idx)
    (hi0 : (i 0).val = 512 * t + p.val) (hi1 : (i 1).val = q.val) :
    Attn.outRow (fun j => Attn.lin x0 x1 x2 p j) (fun m j => x3 (ix2 m j)) (fun m j => x4 (ix2 m j)) x5 x6 q
      = Attn.outRow (fun j => Attn.lin A W b (i 0) j) (fun m j => K (ix2 m j)) (fun m j => U (ix2 m j)) Wo bo (i 1) := by
  have e1 : i 1 = q := Fin.ext hi1
  obtain rfl : x3 = K := funext h3
  obtain rfl : x4 = U := funext h4
  obtain rfl : x5 = Wo := funext h5
  obtain rfl : x6 = bo := funext h6
  rw [e1]
  refine congrArg (fun f => Attn.outRow f (fun m j => x3 (ix2 m j)) (fun m j => x4 (ix2 m j)) x5 x6 q) (funext fun j => ?_)
  exact lin_rowBlock A W b x0 x1 x2 t h0 h1 h2 p j (ix2 (i 0) j) hi0 rfl

/-- What point t writes back to the result array is block t of the attention result of the arrays the region found. -/
theorem resultBlock (c : Dev nD) (t : Fin cfg1.N) :
    (dat1 V c).flushed 7 t = ((cfg1.win 7).blk t).view.read (Elt Ideal)
      (fun i => Attn.outRow (fun j => Attn.lin (V c main_arg0) (V c main_v0) (V c main_v2) (i 0) j)
        (fun m j => (V c main_v4_0 : S4096x512.Idx → EReal) (ix2 m j)) (fun m j => (V c main_v4_1 : S4096x512.Idx → EReal) (ix2 m j))
        (V c main_arg6) (V c main_arg7) (i 1) : S4096x512.Idx → EReal) := by
  show (cfg1.win 7).cut (grid1.coords t) ((dat1 V c).after 7 t) = _
  rw [after1_7, out1_7_eq]
  rw [View.canon_unit_zero offsets2_zero]
  simp only [View.ld_unit_zero (S := S512x512) offsets2_zero, View.ld_unit_zero (S := S512) offsets1_zero, View.ld_unit_zero (S := S4096x512) offsets2_zero]
  obtain ⟨-, -, -, -, -, -, -, -, -, -, -, -, e0, e1⟩ := blockIndex1 t
  funext j
  obtain ⟨p, q, rfl⟩ : ∃ (p q : Fin 512), j = (ix2 p q : S512x512.Idx) := ⟨j 0, j 1, eq_ix2 j⟩
  rw [View.read_apply]
  show outTerm (F := Ideal) (iblk1 V c 0 t) (iblk1 V c 1 t) (iblk1 V c 2 t) (iblk1 V c 3 t) (iblk1 V c 4 t) (iblk1 V c 5 t) (iblk1 V c 6 t) (ix2 p q)
    = Attn.outRow (fun j => Attn.lin (V c main_arg0) (V c main_v0) (V c main_v2) ((((cfg1.win 7).blk t).view.emb (ix2 p q)) 0) j)
        (fun m j => (V c main_v4_0 : S4096x512.Idx → EReal) (ix2 m j)) (fun m j => (V c main_v4_1 : S4096x512.Idx → EReal) (ix2 m j))
        (V c main_arg6) (V c main_arg7) ((((cfg1.win 7).blk t).view.emb (ix2 p q)) 1)
  rw [outTerm_apply]
  refine outRow_rowBlock _ _ _ _ _ _ _ _ _ _ _ _ _ _ t.val (fun p k i => qIn_rows V c t p k i) (qW_whole V c t) (qB_whole V c t)
    (keys_whole V c t) (values_whole V c t) (outW_whole V c t) (outB_whole V c t) p q _ ?_ ?_
  · show win1_7.index t (0 : Fin 2) * 512 + 1 * p.val = 512 * t.val + p.val; omega
  · show win1_7.index t (1 : Fin 2) * 512 + 1 * q.val = q.val; omega

/-- An index of the result array is in point t's block iff each coordinate is in the block's range on its axis. -/
theorem mem_resultBlock (t : Fin cfg1.N) (i : S4096x512.Idx) :
    i ∈ ((cfg1.win 7).blk t).view.set ↔ ∀ a : Fin 2, win1_7.index t a * S512x512.size a ≤ (i a).val ∧ (i a).val < win1_7.index t a * S512x512.size a + S512x512.size a := by
  show i ∈ ((View.whole main_v5).slice (win1_7.rect t)).set ↔ _
  rw [View.set_slice_whole, Rect.mem_set_unit]
  exact Iff.rfl

/-- Row r of the result array is in the block of point r / 512. -/
theorem result_cover (i : S4096x512.Idx) :
    ∃ t : Fin cfg1.N, (cfg1.win 7).flush t = true ∧ i ∈ ((cfg1.win 7).blk t).view.set := by
  have hi0 : (i 0).val < 4096 := (i 0).isLt
  have hi1 : (i 1).val < 512 := (i 1).isLt
  let t : Fin cfg1.N := ⟨(i 0).val / 512, by rw [show cfg1.N = 8 from N_1]; omega⟩
  have ht : t.val = (i 0).val / 512 := rfl
  obtain ⟨-, -, -, -, -, -, -, -, -, -, -, -, e0, e1⟩ := blockIndex1 t
  refine ⟨t, flush1_7 t, ?_⟩
  rw [mem_resultBlock]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 512 ≤ (i 1).val ∧ (i 1).val < win1_7.index t (1 : Fin 2) * 512 + 512; omega

/-! ### The three arrays -/

/-- After the first region the key array is the key projection of the arrays the region found. -/
theorem arr0_6 (c : Dev nD) : (dat0 V c).arrAt 6 cfg0.N
    = (fun i => Attn.lin (V c main_arg0) (V c main_v1) (V c main_v3) (i 0) (i 1) : S4096x512.Idx → EReal) := by
  exact (dat0 V c).arrAt_eq_of_cover 6 _ (fun t _ => keyBlock V c t) key_cover

/-- and the value array the value projection. -/
theorem arr0_7 (c : Dev nD) : (dat0 V c).arrAt 7 cfg0.N
    = (fun i => Attn.lin (V c main_arg1) (V c main_arg4) (V c main_arg5) (i 0) (i 1) : S4096x512.Idx → EReal) := by
  exact (dat0 V c).arrAt_eq_of_cover 7 _ (fun t _ => valueBlock V c t) value_cover

/-- After the second region the result array is the attention result of the arrays the region found. -/
theorem arr1_7 (c : Dev nD) : (dat1 V c).arrAt 7 cfg1.N
    = (fun i => Attn.outRow (fun j => Attn.lin (V c main_arg0) (V c main_v0) (V c main_v2) (i 0) j)
        (fun m j => (V c main_v4_0 : S4096x512.Idx → EReal) (ix2 m j)) (fun m j => (V c main_v4_1 : S4096x512.Idx → EReal) (ix2 m j))
        (V c main_arg6) (V c main_arg7) (i 1) : S4096x512.Idx → EReal) := by
  exact (dat1 V c).arrAt_eq_of_cover 7 _ (fun t _ => resultBlock V c t) result_cover

end Cert.KernelIdeal.Hand

end
-- ==== Proof.Value.lean ====
/-
  The result array at the end of the run as the attention of the eight arguments: the host slices before the first
  region cut the shared query-key weights and bias in halves, the first region leaves the key and value projections,
  the second region reads them and leaves the result; every boundary's contents are followed back to the launch memory.
-/
import proofs.«420745_j37675453120634_4_alg».proof.Proof.Spec
import proofs.«420745_j37675453120634_4_alg».proof.Proof.Arrays
import proofs.«420745_j37675453120634_4_alg».proof.Proof.Gen.KernelIdeal.Frame
import Idealize.ShloMosaic.Lib.Pipeline.Value
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The contents the first region is entered with -/

/-- The query half of the shared weights: columns 0 … 511. -/
theorem V1_v0 (c : Dev nD) : (V1 m ρ c main_v0 : S512x512.Idx → EReal) = Attn.colsFrom 0 (by omega) (m ((c.tc : Thread nD τ).loc main_arg2)) := by
  have e : (V1 m ρ c main_v0 : S512x512.Idx → EReal)
      = extractStridedSlice S512x512 ![0, 0] (m ((c.tc : Thread nD τ).loc main_arg2) : S512x1024.Idx → EReal) slices_S512x1024_S512x512_0_0 := by
    dsimp only [V1, W1, hostOps0]; after_results
  rw [e]; funext i
  refine extractStridedSlice_apply _ _ _ i _ fun a => ?_
  match a with
  | ⟨0, _⟩ => simp
  | ⟨1, _⟩ => simp

/-- The key half: columns 512 … 1023. -/
theorem V1_v1 (c : Dev nD) : (V1 m ρ c main_v1 : S512x512.Idx → EReal) = Attn.colsFrom 512 (by omega) (m ((c.tc : Thread nD τ).loc main_arg2)) := by
  have e : (V1 m ρ c main_v1 : S512x512.Idx → EReal)
      = extractStridedSlice S512x512 ![0, 512] (m ((c.tc : Thread nD τ).loc main_arg2) : S512x1024.Idx → EReal) slices_S512x1024_S512x512_0_512 := by
    dsimp only [V1, W1, hostOps0]; after_results
  rw [e]; funext i
  refine extractStridedSlice_apply _ _ _ i _ fun a => ?_
  match a with
  | ⟨0, _⟩ => simp
  | ⟨1, _⟩ => simp

/-- The query half of the shared bias. -/
theorem V1_v2 (c : Dev nD) : (V1 m ρ c main_v2 : S512.Idx → EReal) = Attn.entriesFrom 0 (by omega) (m ((c.tc : Thread nD τ).loc main_arg3)) := by
  have e : (V1 m ρ c main_v2 : S512.Idx → EReal)
      = extractStridedSlice S512 ![0] (m ((c.tc : Thread nD τ).loc main_arg3) : S1024.Idx → EReal) slices_S1024_S512_0 := by
    dsimp only [V1, W1, hostOps0]; after_results
  rw [e]; funext i
  refine extractStridedSlice_apply _ _ _ i _ fun a => ?_
  match a with
  | ⟨0, _⟩ => simp

/-- The key half of the shared bias. -/
theorem V1_v3 (c : Dev nD) : (V1 m ρ c main_v3 : S512.Idx → EReal) = Attn.entriesFrom 512 (by omega) (m ((c.tc : Thread nD τ).loc main_arg3)) := by
  have e : (V1 m ρ c main_v3 : S512.Idx → EReal)
      = extractStridedSlice S512 ![512] (m ((c.tc : Thread nD τ).loc main_arg3) : S1024.Idx → EReal) slices_S1024_S512_512 := by
    dsimp only [V1, W1, hostOps0]; after_results
  rw [e]; funext i
  refine extractStridedSlice_apply _ _ _ i _ fun a => ?_
  match a with
  | ⟨0, _⟩ => simp

/-- No host slice writes an argument. -/
theorem V1_arg (c : Dev nD) :
    V1 m ρ c main_arg0 = m ((c.tc : Thread nD τ).loc main_arg0) ∧ V1 m ρ c main_arg1 = m ((c.tc : Thread nD τ).loc main_arg1)
    ∧ V1 m ρ c main_arg4 = m ((c.tc : Thread nD τ).loc main_arg4) ∧ V1 m ρ c main_arg5 = m ((c.tc : Thread nD τ).loc main_arg5) := by
  refine ⟨?_, ?_, ?_, ?_⟩ <;> (dsimp only [V1, W1, hostOps0]; after_results)

/-! ## The contents the second region is entered with -/

/-- The arguments the second region reads are as launched: the run's last boundary holds them unchanged, and the
    second region does not write its input arrays. -/
theorem V2_arg0 (c : Dev nD) : V2 m ρ c main_arg0 = m ((c.tc : Thread nD τ).loc main_arg0) :=
  (((W3_arr m ρ c 0).trans (((dat1 (V2 m ρ) c).arrAt_in 0 rfl _).trans (A_eq1 (V2 m ρ) c 0))).symm).trans (W3_main_arg0 m ρ c)
theorem V2_arg6 (c : Dev nD) : V2 m ρ c main_arg6 = m ((c.tc : Thread nD τ).loc main_arg6) :=
  (((W3_arr m ρ c 5).trans (((dat1 (V2 m ρ) c).arrAt_in 5 rfl _).trans (A_eq1 (V2 m ρ) c 5))).symm).trans (W3_main_arg6 m ρ c)
theorem V2_arg7 (c : Dev nD) : V2 m ρ c main_arg7 = m ((c.tc : Thread nD τ).loc main_arg7) :=
  (((W3_arr m ρ c 6).trans (((dat1 (V2 m ρ) c).arrAt_in 6 rfl _).trans (A_eq1 (V2 m ρ) c 6))).symm).trans (W3_main_arg7 m ρ c)

/-- The first region writes neither half of the query weights and bias. -/
theorem V2_v0 (c : Dev nD) : V2 m ρ c main_v0 = V1 m ρ c main_v0 := W2_of_ne m ρ c main_v0 (by decide)
theorem V2_v2 (c : Dev nD) : V2 m ρ c main_v2 = V1 m ρ c main_v2 := W2_of_ne m ρ c main_v2 (by decide)

/-- The key and value arrays are what the first region leaves. -/
theorem V2_v4_0 (c : Dev nD) : V2 m ρ c main_v4_0 = (dat0 (V1 m ρ) c).arrAt 6 cfg0.N := W2_arr m ρ c 6
theorem V2_v4_1 (c : Dev nD) : V2 m ρ c main_v4_1 = (dat0 (V1 m ρ) c).arrAt 7 cfg0.N := W2_arr m ρ c 7

/-! ## The result -/

theorem result_eq (c : Dev nD) : W3 m ρ c (Proc.devRef .tc main_v5)
    = Attn.attention (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W3_arr m ρ c 7).trans ?_
  refine (arr1_7 (V2 m ρ) c).trans ?_
  obtain ⟨a0, a1, a4, a5⟩ := V1_arg m ρ c
  funext i
  unfold Attn.attention
  rw [V2_arg0, V2_arg6, V2_arg7, V2_v0, V2_v2, V2_v4_0, V2_v4_1, arr0_6 (V1 m ρ) c, arr0_7 (V1 m ρ) c,
    V1_v0, V1_v1, V1_v2, V1_v3, a0, a1, a4, a5]

end Cert.KernelIdeal.Hand

end
-- ==== Proof.RefSpec.lean ====
/-
  The reference's result is the attention of its eight arguments: its operations read one at a time at an index.
  The shared projection is split by column ranges, the reshape to [4096, 8, 64] puts column 64 h + d at (h, d), the
  transposes move the head to the front, the scores are divided by sqrt 64, the softmax's maximum is a reduce from −∞
  under one more maximum with −∞, its sum starts from 0, and the heads' outputs are laid back side by side.
-/
import proofs.«420745_j37675453120634_4_alg».proof.Proof.Spec
import proofs.«420745_j37675453120634_4_alg».proof.Proof.RefRead
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.ShloMosaic.ValueIdx Idealize.SL.Sem
open Cert.ReferenceIdeal.Read

section Stages

variable (x0 x1 : (⟨S4096x512, .f32⟩ : BufTy).Contents (Elt Ideal)) (x2 : (⟨S512x1024, .f32⟩ : BufTy).Contents (Elt Ideal))
  (x3 : (⟨S1024, .f32⟩ : BufTy).Contents (Elt Ideal)) (x4 : (⟨S512x512, .f32⟩ : BufTy).Contents (Elt Ideal))
  (x5 : (⟨S512, .f32⟩ : BufTy).Contents (Elt Ideal)) (x6 : (⟨S512x512, .f32⟩ : BufTy).Contents (Elt Ideal))
  (x7 : (⟨S512, .f32⟩ : BufTy).Contents (Elt Ideal))

/-- The shared query-key projection at (n, j): the contraction over the 512 input columns plus the bias entry. -/
theorem qk_apply (n : Fin 4096) (j : Fin 1024) :
    val_main_v3 (F := Ideal) x0 x2 x3 (ix2 n j) = (∑ k : Fin 512, x0 (ix2 n k) * x2 (ix2 k j)) + x3 (ix1 j) := by
  rw [val_main_v3_apply, val_main_v0_apply, val_main_v2_apply, val_main_v1_apply]
  have el : ∀ k : Fin 512, lidx_main_v0 (ix2 n j) k = ix2 n k := fun k => funext fun a => Fin.ext (by
    match a with | ⟨0, _⟩ => rfl | ⟨1, _⟩ => rfl)
  have er : ∀ k : Fin 512, ridx_main_v0 (ix2 n j) k = ix2 k j := fun k => funext fun a => Fin.ext (by
    match a with | ⟨0, _⟩ => rfl | ⟨1, _⟩ => rfl)
  have eb : idx_main_v1 (idx_main_v2 (ix2 n j)) = ix1 j := funext fun a => Fin.ext (by
    match a with | ⟨0, _⟩ => rfl)
  rw [eb]
  refine congrArg (· + x3 (ix1 j)) (Finset.sum_congr rfl fun k _ => ?_)
  rw [el, er]

/-- The query half: columns [0, 512) of the shared projection. -/
theorem q_apply (n : Fin 4096) (j : Fin 512) :
    val_main_v4 (F := Ideal) x0 x2 x3 (ix2 n j)
      = Attn.lin x0 (Attn.colsFrom 0 (by omega) x2) (Attn.entriesFrom 0 (by omega) x3) n j := by
  rw [val_main_v4_apply]
  have e : idx_main_v4 (ix2 n j) = ix2 n (⟨0 + j.val, by have := j.isLt; omega⟩ : Fin 1024) := funext fun a => Fin.ext (by
    match a with | ⟨0, _⟩ => rfl | ⟨1, _⟩ => exact (Nat.zero_add _).symm)
  rw [e, qk_apply]
  rfl

/-- The key half: columns [512, 1024) of the shared projection. -/
theorem k_apply (n : Fin 4096) (j : Fin 512) :
    val_main_v5 (F := Ideal) x0 x2 x3 (ix2 n j)
      = Attn.lin x0 (Attn.colsFrom 512 (by omega) x2) (Attn.entriesFrom 512 (by omega) x3) n j := by
  rw [val_main_v5_apply]
  have e : idx_main_v5 (ix2 n j) = ix2 n (⟨512 + j.val, by have := j.isLt; omega⟩ : Fin 1024) := funext fun a => Fin.ext (by
    match a with | ⟨0, _⟩ => rfl | ⟨1, _⟩ => rfl)
  rw [e, qk_apply]
  rfl

/-- The value projection at (n, j). -/
theorem v_apply (n : Fin 4096) (j : Fin 512) :
    val_main_v9 (F := Ideal) x1 x4 x5 (ix2 n j) = Attn.lin x1 x4 x5 n j := by
  rw [val_main_v9_apply, val_main_v6_apply, val_main_v8_apply, val_main_v7_apply]
  have el : ∀ k : Fin 512, lidx_main_v6 (ix2 n j) k = ix2 n k := fun k => funext fun a => Fin.ext (by
    match a with | ⟨0, _⟩ => rfl | ⟨1, _⟩ => rfl)
  have er : ∀ k : Fin 512, ridx_main_v6 (ix2 n j) k = ix2 k j := fun k => funext fun a => Fin.ext (by
    match a with | ⟨0, _⟩ => rfl | ⟨1, _⟩ => rfl)
  have eb : idx_main_v7 (idx_main_v8 (ix2 n j)) = ix1 j := funext fun a => Fin.ext (by
    match a with | ⟨0, _⟩ => rfl)
  rw [eb]
  refine congrArg (· + x5 (ix1 j)) (Finset.sum_congr rfl fun k _ => ?_)
  rw [el, er]

/-- Reading a [4096, 512] array as [4096, 8, 64] and moving the head to the front: (h, n, d) holds column 64 h + d of row n. -/
theorem heads_idx (h : Fin 8) (n : Fin 4096) (d : Fin 64) :
    idx_main_v10 (idx_main_v11 (ix3 h n d)) = ix2 n (Attn.hcol h d) := funext fun a => Fin.ext (by
  have hh := h.isLt; have hn := n.isLt; have hd := d.isLt
  match a with
  | ⟨0, _⟩ => show ((n.val * 8 + h.val) * 64 + d.val) / 512 = n.val; omega
  | ⟨1, _⟩ => show ((n.val * 8 + h.val) * 64 + d.val) % 512 = 64 * h.val + d.val; omega)

theorem qh_apply (h : Fin 8) (n : Fin 4096) (d : Fin 64) :
    val_main_v11 (F := Ideal) x0 x2 x3 (ix3 h n d) = val_main_v4 (F := Ideal) x0 x2 x3 (ix2 n (Attn.hcol h d)) := by
  rw [val_main_v11_apply, val_main_v10_apply, heads_idx]

theorem kh_apply (h : Fin 8) (n : Fin 4096) (d : Fin 64) :
    val_main_v13 (F := Ideal) x0 x2 x3 (ix3 h n d) = val_main_v5 (F := Ideal) x0 x2 x3 (ix2 n (Attn.hcol h d)) := by
  rw [val_main_v13_apply, val_main_v12_apply]
  exact congrArg _ (heads_idx h n d)

theorem vh_apply (h : Fin 8) (n : Fin 4096) (d : Fin 64) :
    val_main_v15 (F := Ideal) x1 x4 x5 (ix3 h n d) = val_main_v9 (F := Ideal) x1 x4 x5 (ix2 n (Attn.hcol h d)) := by
  rw [val_main_v15_apply, val_main_v14_apply]
  exact congrArg _ (heads_idx h n d)

/-- Head h's scaled scores of query row n against every key row. -/
abbrev scoreRow (h : Fin 8) (n : Fin 4096) : Fin 4096 → EReal :=
  Attn.rowScore (fun d => Attn.lin x0 (Attn.colsFrom 0 (by omega) x2) (Attn.entriesFrom 0 (by omega) x3) n (Attn.hcol h d))
    (fun m d => Attn.lin x0 (Attn.colsFrom 512 (by omega) x2) (Attn.entriesFrom 512 (by omega) x3) m (Attn.hcol h d))

/-- The scores: the contraction over the 64 lanes, divided by sqrt 64. -/
theorem score_apply (h : Fin 8) (n m : Fin 4096) :
    val_main_v19 (F := Ideal) x0 x2 x3 (ix3 h n m) = scoreRow x0 x2 x3 h n m := by
  rw [val_main_v19_apply, val_main_v16_apply, val_main_v18_apply, val_main_v17_apply, val_main_cst_apply]
  have el : ∀ k : Fin 64, lidx_main_v16 (ix3 h n m) k = ix3 h n k := fun k => funext fun a => Fin.ext (by
    match a with | ⟨0, _⟩ => rfl | ⟨1, _⟩ => rfl | ⟨2, _⟩ => rfl)
  have er : ∀ k : Fin 64, ridx_main_v16 (ix3 h n m) k = ix3 h m k := fun k => funext fun a => Fin.ext (by
    match a with | ⟨0, _⟩ => rfl | ⟨1, _⟩ => rfl | ⟨2, _⟩ => rfl)
  refine (Attn.div_sqrt64 _).trans ?_
  refine congrArg (· * Attn.scale) (Finset.sum_congr rfl fun k _ => ?_)
  rw [el, er, qh_apply, kh_apply, q_apply, k_apply]

/-- The softmax's maximum: the reduce from −∞ over the key axis under one more maximum with −∞ is the row's maximum. -/
theorem rowmax_apply (h : Fin 8) (n : Fin 4096) :
    val_main_v22 (F := Ideal) x0 x2 x3 (ix2 h n) = Attn.rowMax (scoreRow x0 x2 x3 h n) := by
  rw [val_main_v22_apply, val_main_v21_apply, val_main_cst_1_apply]
  unfold val_main_v20
  have hR : Shape.Reduces S8x4096x4096 [2] S8x4096 := by decide
  rw [Host.reduce_eq_fold_single FloatOps.maximumf _ _ reducesTo_S8x4096x4096_S8x4096_d2 hR h_S_]
  have es : (val_main_v19 (F := Ideal) x0 x2 x3 ∘ hR.lift (ix2 h n)) = scoreRow x0 x2 x3 h n := funext fun m =>
    (congrArg (val_main_v19 (F := Ideal) x0 x2 x3) (funext fun a => Fin.ext (by
      match a with | ⟨0, _⟩ => rfl | ⟨1, _⟩ => rfl | ⟨2, _⟩ => rfl))).trans (score_apply x0 x2 x3 h n m)
  rw [es, val_main_cst_0_apply]
  exact Attn.max_negInf_rowMax _

/-- The exponential of a score less the row's maximum. -/
theorem exp_apply (h : Fin 8) (n m : Fin 4096) :
    val_main_v26 (F := Ideal) x0 x2 x3 (ix3 h n m)
      = Ideal.exp (scoreRow x0 x2 x3 h n m - Attn.rowMax (scoreRow x0 x2 x3 h n)) := by
  rw [val_main_v26_apply, val_main_v25_apply, val_main_v24_apply, val_main_v23_apply, score_apply]
  have e : idx_main_v23 (idx_main_v24 (ix3 h n m)) = ix2 h n := funext fun a => Fin.ext (by
    match a with | ⟨0, _⟩ => rfl | ⟨1, _⟩ => rfl)
  rw [e, rowmax_apply]
  rfl

/-- The softmax's denominator: the sum from 0 over the key axis. -/
theorem rowsum_apply (h : Fin 8) (n m : Fin 4096) :
    val_main_v29 (F := Ideal) x0 x2 x3 (ix3 h n m)
      = ∑ m' : Fin 4096, Ideal.exp (scoreRow x0 x2 x3 h n m' - Attn.rowMax (scoreRow x0 x2 x3 h n)) := by
  rw [val_main_v29_apply, val_main_v28_apply, val_main_v27_apply, val_main_cst_2_apply]
  refine (congrArg (· + _) Ideal.ofBits_zero_f32).trans ?_
  rw [zero_add]
  refine Finset.sum_congr rfl fun k _ => ?_
  have e : idx_main_v27 (idx_main_v28 (idx_main_v29 (ix3 h n m))) k = ix3 h n k := funext fun a => Fin.ext (by
    match a with | ⟨0, _⟩ => rfl | ⟨1, _⟩ => rfl | ⟨2, _⟩ => rfl)
  rw [e, exp_apply]

/-- The softmax weight of key row m. -/
theorem weight_apply (h : Fin 8) (n m : Fin 4096) :
    val_main_v30 (F := Ideal) x0 x2 x3 (ix3 h n m) = Attn.rowWeight (scoreRow x0 x2 x3 h n) m := by
  rw [val_main_v30_apply, exp_apply, rowsum_apply]
  rfl

/-- Lane d of head h's output for query row n: the weighted sum of the head's value rows. -/
theorem attend_apply (h : Fin 8) (n : Fin 4096) (d : Fin 64) :
    val_main_v31 (F := Ideal) x0 x1 x2 x3 x4 x5 (ix3 h n d)
      = Attn.rowAttend (fun d => Attn.lin x0 (Attn.colsFrom 0 (by omega) x2) (Attn.entriesFrom 0 (by omega) x3) n (Attn.hcol h d))
          (fun m d => Attn.lin x0 (Attn.colsFrom 512 (by omega) x2) (Attn.entriesFrom 512 (by omega) x3) m (Attn.hcol h d))
          (fun m d => Attn.lin x1 x4 x5 m (Attn.hcol h d)) d := by
  rw [val_main_v31_apply]
  have el : ∀ k : Fin 4096, lidx_main_v31 (ix3 h n d) k = ix3 h n k := fun k => funext fun a => Fin.ext (by
    match a with | ⟨0, _⟩ => rfl | ⟨1, _⟩ => rfl | ⟨2, _⟩ => rfl)
  have er : ∀ k : Fin 4096, ridx_main_v31 (ix3 h n d) k = ix3 h k d := fun k => funext fun a => Fin.ext (by
    match a with | ⟨0, _⟩ => rfl | ⟨1, _⟩ => rfl | ⟨2, _⟩ => rfl)
  unfold Attn.rowAttend
  refine Finset.sum_congr rfl fun k _ => ?_
  rw [el, er, weight_apply, vh_apply, v_apply]

/-- The heads' outputs laid back side by side: column j of row n is lane j % 64 of head j / 64. -/
theorem mixed_apply (n : Fin 4096) (j : Fin 512) :
    val_main_v33 (F := Ideal) x0 x1 x2 x3 x4 x5 (ix2 n j)
      = Attn.mixedRow (fun j => Attn.lin x0 (Attn.colsFrom 0 (by omega) x2) (Attn.entriesFrom 0 (by omega) x3) n j)
          (fun m j => Attn.lin x0 (Attn.colsFrom 512 (by omega) x2) (Attn.entriesFrom 512 (by omega) x3) m j)
          (fun m j => Attn.lin x1 x4 x5 m j) j := by
  rw [val_main_v33_apply, val_main_v32_apply]
  have e : idx_main_v32 (idx_main_v33 (ix2 n j)) = ix3 (Attn.headOf j) n (Attn.laneOf j) := funext fun a => Fin.ext (by
    have hn := n.isLt; have hj := j.isLt
    match a with
    | ⟨0, _⟩ => show (n.val * 512 + j.val) / 64 % 8 = j.val / 64; omega
    | ⟨1, _⟩ => show (n.val * 512 + j.val) / 512 = n.val; omega
    | ⟨2, _⟩ => show (n.val * 512 + j.val) % 64 = j.val % 64; omega)
  rw [e, attend_apply]
  rfl

/-- The result at (n, j): the mixed row through the output projection. -/
theorem out_apply (n : Fin 4096) (j : Fin 512) :
    val_main_v37 (F := Ideal) x0 x1 x2 x3 x4 x5 x6 x7 (ix2 n j) = Attn.attention x0 x1 x2 x3 x4 x5 x6 x7 (ix2 n j) := by
  rw [val_main_v37_apply, val_main_v34_apply, val_main_v36_apply, val_main_v35_apply]
  have el : ∀ k : Fin 512, lidx_main_v34 (ix2 n j) k = ix2 n k := fun k => funext fun a => Fin.ext (by
    match a with | ⟨0, _⟩ => rfl | ⟨1, _⟩ => rfl)
  have er : ∀ k : Fin 512, ridx_main_v34 (ix2 n j) k = ix2 k j := fun k => funext fun a => Fin.ext (by
    match a with | ⟨0, _⟩ => rfl | ⟨1, _⟩ => rfl)
  have eb : idx_main_v35 (idx_main_v36 (ix2 n j)) = ix1 j := funext fun a => Fin.ext (by
    match a with | ⟨0, _⟩ => rfl)
  rw [eb]
  unfold Attn.attention Attn.outRow
  refine congrArg (· + x7 (ix1 j)) (Finset.sum_congr rfl fun k _ => ?_)
  rw [el, er, mixed_apply]

end Stages

theorem res_eq (m : (ℓ : Loc nD τ sig) → Buf (Elt Ideal) ℓ) (c : Dev nD) :
    Cert.ReferenceIdeal.Value.res_out0 (F := Ideal) m c
      = Attn.attention (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  funext i
  obtain ⟨n, j, rfl⟩ : ∃ (n : Fin 4096) (j : Fin 512), i = ix2 n j := ⟨i 0, i 1, eq_ix2 i⟩
  show Cert.ReferenceIdeal.Value.res_main_v37 m c (ix2 n j) = _
  rw [val_main_v37_eq]
  exact out_apply _ _ _ _ _ _ _ _ n j

end Cert.ReferenceIdeal.Hand

end
-- ==== Proof.lean ====
/-
  A two-kernel multi-head cross attention against its jnp reference, over the extended reals.

  The first kernel writes the key and value projections of the 4096 tokens, 512 rows per grid point. The second
  kernel recomputes the query projection of its 512 rows, and for each of the eight heads takes the scores against all
  keys times 1/8, their softmax along the keys and the weighted sum of the values; the heads are laid side by side and
  sent through the output projection. The reference computes the shared query-key projection whole, splits it, moves
  the heads to a leading axis, divides the scores by sqrt 64 and applies jax's softmax. Read at the ideal values every
  format change is the identity and every matrix product a plain sum, so both programs compute `Attn.attention` of
  the eight arguments, index by index; the one arithmetic law needed is that dividing by sqrt 64 is multiplying by
  1/8, which holds on every extended real, so the precondition is never opened.
  The kernel program's frames are the generated ones; its run with the result array named is the generated launch
  read at one more buffer; the reference's frame is its generated run. The ideal pass rewrote nothing, so the
  idealization claim is trivial.
-/
import proofs.«420745_j37675453120634_4_alg».proof.Defs
import proofs.«420745_j37675453120634_4_alg».proof.Proof.Gen.Kernel
import proofs.«420745_j37675453120634_4_alg».proof.Proof.Gen.Kernel.Frame
import proofs.«420745_j37675453120634_4_alg».proof.Proof.Gen.KernelIdeal
import proofs.«420745_j37675453120634_4_alg».proof.Proof.Gen.KernelIdeal.Frame
import proofs.«420745_j37675453120634_4_alg».proof.Proof.Gen.ReferenceIdeal
import proofs.«420745_j37675453120634_4_alg».proof.Proof.Gen.Pre_finite_inputs
import proofs.«420745_j37675453120634_4_alg».proof.Proof.RefRead
import proofs.«420745_j37675453120634_4_alg».proof.Proof.RunValue
import proofs.«420745_j37675453120634_4_alg».proof.Proof.Value
import proofs.«420745_j37675453120634_4_alg».proof.Proof.RefSpec
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the attention of the arguments in their result arrays. -/
theorem algebraic : Cert.algebraic_KernelIdeal_ReferenceIdeal := by
  intro m ρ m' ρ' _ hagree
  refine ⟨fun c => Cert.Attn.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    refine (Cert.ReferenceIdeal.Hand.res_eq m' c).trans ?_
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
